-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x256 : Shape := ⟨3, ![4, 4096, 256]⟩
abbrev S4x256x64 : Shape := ⟨3, ![4, 256, 64]⟩
abbrev S4x64x256 : Shape := ⟨3, ![4, 64, 256]⟩
abbrev S_ : Shape := ⟨0, ![]⟩

class Facts : Prop where
  bcast_S_S4x4096x256 : S_.BroadcastsInDim S4x4096x256 (![] : Fin 0 → Fin S4x4096x256.rank)
  reducesTo_S4x4096x256_S_d0_1_2 : S4x4096x256.ReducesTo [0, 1, 2] S_
  h_S_ : 0 < S_.numel
  bcast_S_S4x256x64 : S_.BroadcastsInDim S4x256x64 (![] : Fin 0 → Fin S4x256x64.rank)
  reducesTo_S4x256x64_S_d0_1_2 : S4x256x64.ReducesTo [0, 1, 2] S_
  bcast_S_S4x64x256 : S_.BroadcastsInDim S4x64x256 (![] : Fin 0 → Fin S4x64x256.rank)
  reducesTo_S4x64x256_S_d0_1_2 : S4x64x256.ReducesTo [0, 1, 2] S_

variable [Facts]

def fn_part1 {F : FTy → Type} [FloatOps F] (main_arg4 : FVec F S4x64x256 .f32) (main_v13 : IVec S_ 1) (main_v16 : IVec S4x256x64 1) : IVec S_ 1 :=
  let main_c_5 : IVec S_ 1 := constantI S_ 1 1#1
  let main_v17 : IVec S_ 1 := (fun x v => Host.reduce IntOp.andi x v reducesTo_S4x256x64_S_d0_1_2 h_S_) main_v16 main_c_5
  let main_v18 : IVec S_ 1 := andi main_v13 main_v17
  let main_v19 : FVec F S4x64x256 .f32 := Host.absf main_arg4
  let main_cst_6 : FVec F S_ .f32 := constant S_ .f32 0x7F800000#32
  let main_v20 : FVec F S4x64x256 .f32 := broadcastInDim S4x64x256 ![] bcast_S_S4x64x256 main_cst_6
  let main_v21 : IVec S4x64x256 1 := cmpf .olt main_v19 main_v20
  let main_c_7 : IVec S_ 1 := constantI S_ 1 1#1
  let main_v22 : IVec S_ 1 := (fun x v => Host.reduce IntOp.andi x v reducesTo_S4x64x256_S_d0_1_2 h_S_) main_v21 main_c_7
  let main_v23 : IVec S_ 1 := andi main_v18 main_v22
  main_v23

def fn {F : FTy → Type} [FloatOps F] (main_arg0 : FVec F S4x4096x256 .f32) (main_arg1 : FVec F S4x256x64 .f32) (main_arg2 : FVec F S4x256x64 .f32) (main_arg3 : FVec F S4x256x64 .f32) (main_arg4 : FVec F S4x64x256 .f32) : IVec S_ 1 :=
  let main_v0 : FVec F S4x4096x256 .f32 := Host.absf main_arg0
  let main_cst : FVec F S_ .f32 := constant S_ .f32 0x7F800000#32
  let main_v1 : FVec F S4x4096x256 .f32 := broadcastInDim S4x4096x256 ![] bcast_S_S4x4096x256 main_cst
  let main_v2 : IVec S4x4096x256 1 := cmpf .olt main_v0 main_v1
  let main_c : IVec S_ 1 := constantI S_ 1 1#1
  let main_v3 : IVec S_ 1 := (fun x v => Host.reduce IntOp.andi x v reducesTo_S4x4096x256_S_d0_1_2 h_S_) main_v2 main_c
  let main_v4 : FVec F S4x256x64 .f32 := Host.absf main_arg1
  let main_cst_0 : FVec F S_ .f32 := constant S_ .f32 0x7F800000#32
  let main_v5 : FVec F S4x256x64 .f32 := broadcastInDim S4x256x64 ![] bcast_S_S4x256x64 main_cst_0
  let main_v6 : IVec S4x256x64 1 := cmpf .olt main_v4 main_v5
  let main_c_1 : IVec S_ 1 := constantI S_ 1 1#1
  let main_v7 : IVec S_ 1 := (fun x v => Host.reduce IntOp.andi x v reducesTo_S4x256x64_S_d0_1_2 h_S_) main_v6 main_c_1
  let main_v8 : IVec S_ 1 := andi main_v3 main_v7
  let main_v9 : FVec F S4x256x64 .f32 := Host.absf main_arg2
  let main_cst_2 : FVec F S_ .f32 := constant S_ .f32 0x7F800000#32
  let main_v10 : FVec F S4x256x64 .f32 := broadcastInDim S4x256x64 ![] bcast_S_S4x256x64 main_cst_2
  let main_v11 : IVec S4x256x64 1 := cmpf .olt main_v9 main_v10
  let main_c_3 : IVec S_ 1 := constantI S_ 1 1#1
  let main_v12 : IVec S_ 1 := (fun x v => Host.reduce IntOp.andi x v reducesTo_S4x256x64_S_d0_1_2 h_S_) main_v11 main_c_3
  let main_v13 : IVec S_ 1 := andi main_v8 main_v12
  let main_v14 : FVec F S4x256x64 .f32 := Host.absf main_arg3
  let main_cst_4 : FVec F S_ .f32 := constant S_ .f32 0x7F800000#32
  let main_v15 : FVec F S4x256x64 .f32 := broadcastInDim S4x256x64 ![] bcast_S_S4x256x64 main_cst_4
  let main_v16 : IVec S4x256x64 1 := cmpf .olt main_v14 main_v15
  fn_part1 (F := F) main_arg4 main_v13 main_v16
-- ==== Kernel.lean ====
abbrev S4x4096x256 : Shape := ⟨3, ![4, 4096, 256]⟩
abbrev S4x256x64 : Shape := ⟨3, ![4, 256, 64]⟩
abbrev S4x64x256 : Shape := ⟨3, ![4, 64, 256]⟩
abbrev S1x256x64 : Shape := ⟨3, ![1, 256, 64]⟩
abbrev S256x64 : Shape := ⟨2, ![256, 64]⟩
abbrev S1x64x256 : Shape := ⟨3, ![1, 64, 256]⟩
abbrev S64x256 : Shape := ⟨2, ![64, 256]⟩
abbrev S1x4096x256 : Shape := ⟨3, ![1, 4096, 256]⟩
abbrev S4096x256 : Shape := ⟨2, ![4096, 256]⟩
abbrev S4096x64 : Shape := ⟨2, ![4096, 64]⟩
abbrev S64x64 : Shape := ⟨2, ![64, 64]⟩

abbrev nBuf : Space → Nat
  | .hbm => 41
  | .vmem => 32
  | .smem => 0
  | _ => 0

abbrev bufTy : (tb : Table) → Fin (tcTables nBuf tb) → BufTy
  | .hbm, ⟨0, _⟩ => ⟨S4x4096x256, .f32⟩
  | .hbm, ⟨1, _⟩ => ⟨S4x256x64, .f32⟩
  | .hbm, ⟨2, _⟩ => ⟨S4x256x64, .f32⟩
  | .hbm, ⟨3, _⟩ => ⟨S4x256x64, .f32⟩
  | .hbm, ⟨4, _⟩ => ⟨S4x64x256, .f32⟩
  | .hbm, ⟨5, _⟩ => ⟨S1x256x64, .f32⟩
  | .hbm, ⟨6, _⟩ => ⟨S256x64, .f32⟩
  | .hbm, ⟨7, _⟩ => ⟨S1x256x64, .f32⟩
  | .hbm, ⟨8, _⟩ => ⟨S256x64, .f32⟩
  | .hbm, ⟨9, _⟩ => ⟨S1x256x64, .f32⟩
  | .hbm, ⟨10, _⟩ => ⟨S256x64, .f32⟩
  | .hbm, ⟨11, _⟩ => ⟨S1x64x256, .f32⟩
  | .hbm, ⟨12, _⟩ => ⟨S64x256, .f32⟩
  | .hbm, ⟨13, _⟩ => ⟨S4x4096x256, .f32⟩
  | .hbm, ⟨14, _⟩ => ⟨S1x256x64, .f32⟩
  | .hbm, ⟨15, _⟩ => ⟨S256x64, .f32⟩
  | .hbm, ⟨16, _⟩ => ⟨S1x256x64, .f32⟩
  | .hbm, ⟨17, _⟩ => ⟨S256x64, .f32⟩
  | .hbm, ⟨18, _⟩ => ⟨S1x256x64, .f32⟩
  | .hbm, ⟨19, _⟩ => ⟨S256x64, .f32⟩
  | .hbm, ⟨20, _⟩ => ⟨S1x64x256, .f32⟩
  | .hbm, ⟨21, _⟩ => ⟨S64x256, .f32⟩
  | .hbm, ⟨22, _⟩ => ⟨S4x4096x256, .f32⟩
  | .hbm, ⟨23, _⟩ => ⟨S1x256x64, .f32⟩
  | .hbm, ⟨24, _⟩ => ⟨S256x64, .f32⟩
  | .hbm, ⟨25, _⟩ => ⟨S1x256x64, .f32⟩
  | .hbm, ⟨26, _⟩ => ⟨S256x64, .f32⟩
  | .hbm, ⟨27, _⟩ => ⟨S1x256x64, .f32⟩
  | .hbm, ⟨28, _⟩ => ⟨S256x64, .f32⟩
  | .hbm, ⟨29, _⟩ => ⟨S1x64x256, .f32⟩
  | .hbm, ⟨30, _⟩ => ⟨S64x256, .f32⟩
  | .hbm, ⟨31, _⟩ => ⟨S4x4096x256, .f32⟩
  | .hbm, ⟨32, _⟩ => ⟨S1x256x64, .f32⟩
  | .hbm, ⟨33, _⟩ => ⟨S256x64, .f32⟩
  | .hbm, ⟨34, _⟩ => ⟨S1x256x64, .f32⟩
  | .hbm, ⟨35, _⟩ => ⟨S256x64, .f32⟩
  | .hbm, ⟨36, _⟩ => ⟨S1x256x64, .f32⟩
  | .hbm, ⟨37, _⟩ => ⟨S256x64, .f32⟩
  | .hbm, ⟨38, _⟩ => ⟨S1x64x256, .f32⟩
  | .hbm, ⟨39, _⟩ => ⟨S64x256, .f32⟩
  | .hbm, ⟨40, _⟩ => ⟨S4x4096x256, .f32⟩
  | .local _ .vmem, ⟨0, _⟩ => ⟨S1x4096x256, .f32⟩
  | .local _ .vmem, ⟨1, _⟩ => ⟨S1x4096x256, .f32⟩
  | .local _ .vmem, ⟨2, _⟩ => ⟨S256x64, .f32⟩
  | .local _ .vmem, ⟨3, _⟩ => ⟨S256x64, .f32⟩
  | .local _ .vmem, ⟨4, _⟩ => ⟨S256x64, .f32⟩
  | .local _ .vmem, ⟨5, _⟩ => ⟨S64x256, .f32⟩
  | .local _ .vmem, ⟨6, _⟩ => ⟨S1x4096x256, .f32⟩
  | .local _ .vmem, ⟨7, _⟩ => ⟨S1x4096x256, .f32⟩
  | .local _ .vmem, ⟨8, _⟩ => ⟨S1x4096x256, .f32⟩
  | .local _ .vmem, ⟨9, _⟩ => ⟨S1x4096x256, .f32⟩
  | .local _ .vmem, ⟨10, _⟩ => ⟨S256x64, .f32⟩
  | .local _ .vmem, ⟨11, _⟩ => ⟨S256x64, .f32⟩
  | .local _ .vmem, ⟨12, _⟩ => ⟨S256x64, .f32⟩
  | .local _ .vmem, ⟨13, _⟩ => ⟨S64x256, .f32⟩
  | .local _ .vmem, ⟨14, _⟩ => ⟨S1x4096x256, .f32⟩
  | .local _ .vmem, ⟨15, _⟩ => ⟨S1x4096x256, .f32⟩
  | .local _ .vmem, ⟨16, _⟩ => ⟨S1x4096x256, .f32⟩
  | .local _ .vmem, ⟨17, _⟩ => ⟨S1x4096x256, .f32⟩
  | .local _ .vmem, ⟨18, _⟩ => ⟨S256x64, .f32⟩
  | .local _ .vmem, ⟨19, _⟩ => ⟨S256x64, .f32⟩
  | .local _ .vmem, ⟨20, _⟩ => ⟨S256x64, .f32⟩
  | .local _ .vmem, ⟨21, _⟩ => ⟨S64x256, .f32⟩
  | .local _ .vmem, ⟨22, _⟩ => ⟨S1x4096x256, .f32⟩
  | .local _ .vmem, ⟨23, _⟩ => ⟨S1x4096x256, .f32⟩
  | .local _ .vmem, ⟨24, _⟩ => ⟨S1x4096x256, .f32⟩
  | .local _ .vmem, ⟨25, _⟩ => ⟨S1x4096x256, .f32⟩
  | .local _ .vmem, ⟨26, _⟩ => ⟨S256x64, .f32⟩
  | .local _ .vmem, ⟨27, _⟩ => ⟨S256x64, .f32⟩
  | .local _ .vmem, ⟨28, _⟩ => ⟨S256x64, .f32⟩
  | .local _ .vmem, ⟨29, _⟩ => ⟨S64x256, .f32⟩
  | .local _ .vmem, ⟨30, _⟩ => ⟨S1x4096x256, .f32⟩
  | .local _ .vmem, ⟨31, _⟩ => ⟨S1x4096x256, .f32⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x4096x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x4096x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![4], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x4096x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1x4096x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![4], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x4096x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S256x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1x4096x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S4x256x64_S1x256x64_0_0_0 : S4x256x64.Slices ![0, 0, 0] S1x256x64
  shapeCasts_S1x256x64_S256x64 : S1x256x64.ShapeCasts S256x64
  slices_S4x64x256_S1x64x256_0_0_0 : S4x64x256.Slices ![0, 0, 0] S1x64x256
  shapeCasts_S1x64x256_S64x256 : S1x64x256.ShapeCasts S64x256
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  shapeCasts_S4096x256_S1x4096x256 : S4096x256.ShapeCasts S1x4096x256
  slices_S4x256x64_S1x256x64_1_0_0 : S4x256x64.Slices ![1, 0, 0] S1x256x64
  slices_S4x64x256_S1x64x256_1_0_0 : S4x64x256.Slices ![1, 0, 0] S1x64x256
  slices_S4x256x64_S1x256x64_2_0_0 : S4x256x64.Slices ![2, 0, 0] S1x256x64
  slices_S4x64x256_S1x64x256_2_0_0 : S4x64x256.Slices ![2, 0, 0] S1x64x256
  slices_S4x256x64_S1x256x64_3_0_0 : S4x256x64.Slices ![3, 0, 0] S1x256x64
  slices_S4x64x256_S1x64x256_3_0_0 : S4x64x256.Slices ![3, 0, 0] S1x64x256
  dot_S4096x256_S256x64_S4096x64_1_0_0_1_n_n_wf : DotDims.WF S4096x256 S256x64 S4096x64 [1] [0] [0] [1] [] []
  dot_S4096x64_S4096x64_S64x64_0_0_1_1_n_n_wf : DotDims.WF S4096x64 S4096x64 S64x64 [0] [0] [1] [1] [] []
  dot_S4096x64_S64x64_S4096x64_1_0_0_1_n_n_wf : DotDims.WF S4096x64 S64x64 S4096x64 [1] [0] [0] [1] [] []
  dot_S4096x64_S64x256_S4096x256_1_0_0_1_n_n_wf : DotDims.WF S4096x64 S64x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S4x4096x256.size a
  hwx0_0 : ∀ i : grid0.Coords, EltTy.bits .f32 = 32 ∨ (Rect.block (s := S4x4096x256) S1x4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S256x64.size a
  hwx0_2 : ∀ i : grid0.Coords, EltTy.bits .f32 = 32 ∨ (Rect.block (s := S256x64) S256x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S256x64.size a
  hwx0_3 : ∀ i : grid0.Coords, EltTy.bits .f32 = 32 ∨ (Rect.block (s := S256x64) S256x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x256.size a ≤ S64x256.size a
  hwx0_4 : ∀ i : grid0.Coords, EltTy.bits .f32 = 32 ∨ (Rect.block (s := S64x256) S64x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x4096x256.size a ≤ S4x4096x256.size a
  hwx0_5 : ∀ i : grid0.Coords, EltTy.bits .f32 = 32 ∨ (Rect.block (s := S4x4096x256) S1x4096x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4096x256.size a ≤ S4x4096x256.size a
  hwx1_0 : ∀ i : grid1.Coords, EltTy.bits .f32 = 32 ∨ (Rect.block (s := S4x4096x256) S1x4096x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x64.size a ≤ S256x64.size a
  hwx1_1 : ∀ i : grid1.Coords, EltTy.bits .f32 = 32 ∨ (Rect.block (s := S256x64) S256x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x64.size a ≤ S256x64.size a
  hwx1_2 : ∀ i : grid1.Coords, EltTy.bits .f32 = 32 ∨ (Rect.block (s := S256x64) S256x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x64.size a ≤ S256x64.size a
  hwx1_3 : ∀ i : grid1.Coords, EltTy.bits .f32 = 32 ∨ (Rect.block (s := S256x64) S256x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x256.size a ≤ S64x256.size a
  hwx1_4 : ∀ i : grid1.Coords, EltTy.bits .f32 = 32 ∨ (Rect.block (s := S64x256) S64x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x4096x256.size a ≤ S4x4096x256.size a
  hwx1_5 : ∀ i : grid1.Coords, EltTy.bits .f32 = 32 ∨ (Rect.block (s := S4x4096x256) S1x4096x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x4096x256.size a ≤ S4x4096x256.size a
  hwx2_0 : ∀ i : grid2.Coords, EltTy.bits .f32 = 32 ∨ (Rect.block (s := S4x4096x256) S1x4096x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x64.size a ≤ S256x64.size a
  hwx2_1 : ∀ i : grid2.Coords, EltTy.bits .f32 = 32 ∨ (Rect.block (s := S256x64) S256x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x64.size a ≤ S256x64.size a
  hwx2_2 : ∀ i : grid2.Coords, EltTy.bits .f32 = 32 ∨ (Rect.block (s := S256x64) S256x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x64.size a ≤ S256x64.size a
  hwx2_3 : ∀ i : grid2.Coords, EltTy.bits .f32 = 32 ∨ (Rect.block (s := S256x64) S256x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x256.size a ≤ S64x256.size a
  hwx2_4 : ∀ i : grid2.Coords, EltTy.bits .f32 = 32 ∨ (Rect.block (s := S64x256) S64x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x4096x256.size a ≤ S4x4096x256.size a
  hwx2_5 : ∀ i : grid2.Coords, EltTy.bits .f32 = 32 ∨ (Rect.block (s := S4x4096x256) S1x4096x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x4096x256.size a ≤ S4x4096x256.size a
  hwx3_0 : ∀ i : grid3.Coords, EltTy.bits .f32 = 32 ∨ (Rect.block (s := S4x4096x256) S1x4096x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x64.size a ≤ S256x64.size a
  hwx3_1 : ∀ i : grid3.Coords, EltTy.bits .f32 = 32 ∨ (Rect.block (s := S256x64) S256x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x64.size a ≤ S256x64.size a
  hwx3_2 : ∀ i : grid3.Coords, EltTy.bits .f32 = 32 ∨ (Rect.block (s := S256x64) S256x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x64.size a ≤ S256x64.size a
  hwx3_3 : ∀ i : grid3.Coords, EltTy.bits .f32 = 32 ∨ (Rect.block (s := S256x64) S256x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x256.size a ≤ S64x256.size a
  hwx3_4 : ∀ i : grid3.Coords, EltTy.bits .f32 = 32 ∨ (Rect.block (s := S64x256) S64x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x4096x256.size a ≤ S4x4096x256.size a
  hwx3_5 : ∀ i : grid3.Coords, EltTy.bits .f32 = 32 ∨ (Rect.block (s := S4x4096x256) S1x4096x256.size (cc3_transform_5 i) (hinb3_5 i)).WholeWords (EltTy.packing .f32)

variable [Facts₀]

def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf
def dot_S4096x64_S4096x64_S64x64_0_0_1_1_n_n : DotDims S4096x64 S4096x64 S64x64 where
  lhsContracting := [0]
  rhsContracting := [0]
  lhsNonContracting := [1]
  rhsNonContracting := [1]
  lhsBatch := []
  rhsBatch := []
  wf := dot_S4096x64_S4096x64_S64x64_0_0_1_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x64_S64x256_S4096x256_1_0_0_1_n_n : DotDims S4096x64 S64x256 S4096x256 where
  lhsContracting := [1]
  rhsContracting := [0]
  lhsNonContracting := [0]
  rhsNonContracting := [1]
  lhsBatch := []
  rhsBatch := []
  wf := dot_S4096x64_S64x256_S4096x256_1_0_0_1_n_n_wf

abbrev win0_0 : Pipeline.Window sig grid0 :=
  Pipeline.Window.ofSpec (Memref.whole main_arg0) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S256x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S64x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x4096x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v8) S1x4096x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S256x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S256x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S256x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S64x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S1x4096x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v17) S1x4096x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S256x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v21) S256x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v23) S256x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v25) S64x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v26) S1x4096x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v26) S1x4096x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v28) S256x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v30) S256x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v32) S256x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v34) S64x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v35) S1x4096x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S4x4096x256 : Shape := ⟨3, ![4, 4096, 256]⟩
abbrev S4x256x64 : Shape := ⟨3, ![4, 256, 64]⟩
abbrev S4x64x256 : Shape := ⟨3, ![4, 64, 256]⟩
abbrev S1x256x64 : Shape := ⟨3, ![1, 256, 64]⟩
abbrev S256x64 : Shape := ⟨2, ![256, 64]⟩
abbrev S1x64x256 : Shape := ⟨3, ![1, 64, 256]⟩
abbrev S64x256 : Shape := ⟨2, ![64, 256]⟩
abbrev S4x4096x64 : Shape := ⟨3, ![4, 4096, 64]⟩
abbrev S4x4096x4096 : Shape := ⟨3, ![4, 4096, 4096]⟩

abbrev nBuf : Space → Nat
  | .hbm => 65
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S4x256x64, .f32⟩
  | .hbm, ⟨2, _⟩ => ⟨S4x256x64, .f32⟩
  | .hbm, ⟨3, _⟩ => ⟨S4x256x64, .f32⟩
  | .hbm, ⟨4, _⟩ => ⟨S4x64x256, .f32⟩
  | .hbm, ⟨5, _⟩ => ⟨S1x256x64, .f32⟩
  | .hbm, ⟨6, _⟩ => ⟨S256x64, .f32⟩
  | .hbm, ⟨7, _⟩ => ⟨S1x256x64, .f32⟩
  | .hbm, ⟨8, _⟩ => ⟨S256x64, .f32⟩
  | .hbm, ⟨9, _⟩ => ⟨S1x256x64, .f32⟩
  | .hbm, ⟨10, _⟩ => ⟨S256x64, .f32⟩
  | .hbm, ⟨11, _⟩ => ⟨S1x64x256, .f32⟩
  | .hbm, ⟨12, _⟩ => ⟨S64x256, .f32⟩
  | .hbm, ⟨13, _⟩ => ⟨S4x4096x64, .f32⟩
  | .hbm, ⟨14, _⟩ => ⟨S4x4096x64, .f32⟩
  | .hbm, ⟨15, _⟩ => ⟨S4x4096x64, .f32⟩
  | .hbm, ⟨16, _⟩ => ⟨S4x4096x4096, .f32⟩
  | .hbm, ⟨17, _⟩ => ⟨S4x4096x64, .f32⟩
  | .hbm, ⟨18, _⟩ => ⟨S4x4096x256, .f32⟩
  | .hbm, ⟨19, _⟩ => ⟨S4x4096x256, .f32⟩
  | .hbm, ⟨20, _⟩ => ⟨S1x256x64, .f32⟩
  | .hbm, ⟨21, _⟩ => ⟨S256x64, .f32⟩
  | .hbm, ⟨22, _⟩ => ⟨S1x256x64, .f32⟩
  | .hbm, ⟨23, _⟩ => ⟨S256x64, .f32⟩
  | .hbm, ⟨24, _⟩ => ⟨S1x256x64, .f32⟩
  | .hbm, ⟨25, _⟩ => ⟨S256x64, .f32⟩
  | .hbm, ⟨26, _⟩ => ⟨S1x64x256, .f32⟩
  | .hbm, ⟨27, _⟩ => ⟨S64x256, .f32⟩
  | .hbm, ⟨28, _⟩ => ⟨S4x4096x64, .f32⟩
  | .hbm, ⟨29, _⟩ => ⟨S4x4096x64, .f32⟩
  | .hbm, ⟨30, _⟩ => ⟨S4x4096x64, .f32⟩
  | .hbm, ⟨31, _⟩ => ⟨S4x4096x4096, .f32⟩
  | .hbm, ⟨32, _⟩ => ⟨S4x4096x64, .f32⟩
  | .hbm, ⟨33, _⟩ => ⟨S4x4096x256, .f32⟩
  | .hbm, ⟨34, _⟩ => ⟨S4x4096x256, .f32⟩
  | .hbm, ⟨35, _⟩ => ⟨S1x256x64, .f32⟩
  | .hbm, ⟨36, _⟩ => ⟨S256x64, .f32⟩
  | .hbm, ⟨37, _⟩ => ⟨S1x256x64, .f32⟩
  | .hbm, ⟨38, _⟩ => ⟨S256x64, .f32⟩
  | .hbm, ⟨39, _⟩ => ⟨S1x256x64, .f32⟩
  | .hbm, ⟨40, _⟩ => ⟨S256x64, .f32⟩
  | .hbm, ⟨41, _⟩ => ⟨S1x64x256, .f32⟩
  | .hbm, ⟨42, _⟩ => ⟨S64x256, .f32⟩
  | .hbm, ⟨43, _⟩ => ⟨S4x4096x64, .f32⟩
  | .hbm, ⟨44, _⟩ => ⟨S4x4096x64, .f32⟩
  | .hbm, ⟨45, _⟩ => ⟨S4x4096x64, .f32⟩
  | .hbm, ⟨46, _⟩ => ⟨S4x4096x4096, .f32⟩
  | .hbm, ⟨47, _⟩ => ⟨S4x4096x64, .f32⟩
  | .hbm, ⟨48, _⟩ => ⟨S4x4096x256, .f32⟩
  | .hbm, ⟨49, _⟩ => ⟨S4x4096x256, .f32⟩
  | .hbm, ⟨50, _⟩ => ⟨S1x256x64, .f32⟩
  | .hbm, ⟨51, _⟩ => ⟨S256x64, .f32⟩
  | .hbm, ⟨52, _⟩ => ⟨S1x256x64, .f32⟩
  | .hbm, ⟨53, _⟩ => ⟨S256x64, .f32⟩
  | .hbm, ⟨54, _⟩ => ⟨S1x256x64, .f32⟩
  | .hbm, ⟨55, _⟩ => ⟨S256x64, .f32⟩
  | .hbm, ⟨56, _⟩ => ⟨S1x64x256, .f32⟩
  | .hbm, ⟨57, _⟩ => ⟨S64x256, .f32⟩
  | .hbm, ⟨58, _⟩ => ⟨S4x4096x64, .f32⟩
  | .hbm, ⟨59, _⟩ => ⟨S4x4096x64, .f32⟩
  | .hbm, ⟨60, _⟩ => ⟨S4x4096x64, .f32⟩
  | .hbm, ⟨61, _⟩ => ⟨S4x4096x4096, .f32⟩
  | .hbm, ⟨62, _⟩ => ⟨S4x4096x64, .f32⟩
  | .hbm, ⟨63, _⟩ => ⟨S4x4096x256, .f32⟩
  | .hbm, ⟨64, _⟩ => ⟨S4x4096x256, .f32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩

abbrev nD : Nat := 1
abbrev τ : Topo := Topo.v7x

variable {F : FTy → Type} [FloatOps F]

class Facts₀ : Prop where
  slices_S4x256x64_S1x256x64_0_0_0 : S4x256x64.Slices ![0, 0, 0] S1x256x64
  shapeCasts_S1x256x64_S256x64 : S1x256x64.ShapeCasts S256x64
  slices_S4x64x256_S1x64x256_0_0_0 : S4x64x256.Slices ![0, 0, 0] S1x64x256
  shapeCasts_S1x64x256_S64x256 : S1x64x256.ShapeCasts S64x256
  slices_S4x256x64_S1x256x64_1_0_0 : S4x256x64.Slices ![1, 0, 0] S1x256x64
  slices_S4x64x256_S1x64x256_1_0_0 : S4x64x256.Slices ![1, 0, 0] S1x64x256
  slices_S4x256x64_S1x256x64_2_0_0 : S4x256x64.Slices ![2, 0, 0] S1x256x64
  slices_S4x64x256_S1x64x256_2_0_0 : S4x64x256.Slices ![2, 0, 0] S1x64x256
  slices_S4x256x64_S1x256x64_3_0_0 : S4x256x64.Slices ![3, 0, 0] S1x256x64
  slices_S4x64x256_S1x64x256_3_0_0 : S4x64x256.Slices ![3, 0, 0] S1x64x256
  dot_S4x4096x256_S256x64_S4x4096x64_2_0_01_1_n_n_wf : DotDims.WF S4x4096x256 S256x64 S4x4096x64 [2] [0] [0, 1] [1] [] []
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]
  dot_S4x4096x64_S64x256_S4x4096x256_2_0_01_1_n_n_wf : DotDims.WF S4x4096x64 S64x256 S4x4096x256 [2] [0] [0, 1] [1] [] []

variable [Facts₀]

def dot_S4x4096x256_S256x64_S4x4096x64_2_0_01_1_n_n : DotDims S4x4096x256 S256x64 S4x4096x64 where
  lhsContracting := [2]
  rhsContracting := [0]
  lhsNonContracting := [0, 1]
  rhsNonContracting := [1]
  lhsBatch := []
  rhsBatch := []
  wf := dot_S4x4096x256_S256x64_S4x4096x64_2_0_01_1_n_n_wf
def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf
def dot_S4x4096x64_S64x256_S4x4096x256_2_0_01_1_n_n : DotDims S4x4096x64 S64x256 S4x4096x256 where
  lhsContracting := [2]
  rhsContracting := [0]
  lhsNonContracting := [0, 1]
  rhsNonContracting := [1]
  lhsBatch := []
  rhsBatch := []
  wf := dot_S4x4096x64_S64x256_S4x4096x256_2_0_01_1_n_n_wf

class Facts : Prop extends Facts₀ where

variable [Facts]
-- ==== Proof.KernelDots.lean ====
/-
  The four matrix products of the kernel body, read at one entry of the result, at the exact (extended-real)
  values: each is the plain sum over the contracted coordinate of the products of the two operands' entries.
  Three are row-by-column products; the one that forms Kᵀ·V contracts the FIRST axis of both operands.
-/
import proofs.«111333_j71511205478734_1_alg».proof.Proof.Gen.KernelIdeal
import Idealize.ShloMosaic.Lib.ValueIdx
import Idealize.ShloMosaic.Lib.KernelVsHost
import Idealize.ShloMosaic.Lib.StackMember
import Idealize.ShloMosaic.PureOps.Ideal.Laws

noncomputable section

open scoped BigOperators

namespace Cert.KernelIdeal.LsaDots

open Cert.KernelIdeal Idealize.ShloMosaic Idealize.ShloMosaic.ValueIdx

/-- [4096, 256] · [256, 64]: the projections x·Wq, x·Wk, x·Wv. -/
theorem mm_xw (A : FVec Ideal S4096x256 .bf16) (B : FVec Ideal S256x64 .bf16) (s : Fin 4096) (k : Fin 64) :
    matmul dot_S4096x256_S256x64_S4096x64_1_0_0_1_n_n none A B (constant S4096x64 .f32 0x00000000#32) (ix2 s k)
      = ∑ d : Fin 256, A (ix2 s d) * B (ix2 d k) := by
  show FloatOps.matmul _ none A B (constant _ .f32 0x00000000#32) _ = _
  rw [Ideal.matmul_constant_zero_apply, ← Equiv.sum_comp (contrEquiv1 dot_S4096x256_S256x64_S4096x64_1_0_0_1_n_n 256 rfl rfl).symm]
  refine Finset.sum_congr rfl fun c _ => ?_
  have c2 := contrEquiv1_symm_val dot_S4096x256_S256x64_S4096x64_1_0_0_1_n_n 256 rfl rfl c
  have l2 : dot_S4096x256_S256x64_S4096x64_1_0_0_1_n_n.lhsIdx (ix2 s k) ((contrEquiv1 _ 256 rfl rfl).symm c) = ix2 s c := by
    funext ax; apply Fin.ext
    match ax with
    | ⟨0, _⟩ => simp [DotDims.lhsIdx, dot_S4096x256_S256x64_S4096x64_1_0_0_1_n_n]; rfl
    | ⟨1, _⟩ => simp [DotDims.lhsIdx, dot_S4096x256_S256x64_S4096x64_1_0_0_1_n_n]; exact c2
  have r2 : dot_S4096x256_S256x64_S4096x64_1_0_0_1_n_n.rhsIdx (ix2 s k) ((contrEquiv1 _ 256 rfl rfl).symm c) = ix2 c k := by
    funext ax; apply Fin.ext
    match ax with
    | ⟨0, _⟩ => simp [DotDims.rhsIdx, dot_S4096x256_S256x64_S4096x64_1_0_0_1_n_n]; exact c2
    | ⟨1, _⟩ => simp [DotDims.rhsIdx, dot_S4096x256_S256x64_S4096x64_1_0_0_1_n_n]; rfl
  rw [l2, r2]

/-- [4096, 64]ᵀ · [4096, 64]: Kᵀ·V, both operands contracted on their first axis. -/
theorem mm_ktv (A B : FVec Ideal S4096x64 .bf16) (k v : Fin 64) :
    matmul dot_S4096x64_S4096x64_S64x64_0_0_1_1_n_n none A B (constant S64x64 .f32 0x00000000#32) (ix2 k v)
      = ∑ t : Fin 4096, A (ix2 t k) * B (ix2 t v) := by
  show FloatOps.matmul _ none A B (constant _ .f32 0x00000000#32) _ = _
  rw [Ideal.matmul_constant_zero_apply, ← Equiv.sum_comp (contrEquiv1 dot_S4096x64_S4096x64_S64x64_0_0_1_1_n_n 4096 rfl rfl).symm]
  refine Finset.sum_congr rfl fun c _ => ?_
  have c2 := contrEquiv1_symm_val dot_S4096x64_S4096x64_S64x64_0_0_1_1_n_n 4096 rfl rfl c
  have l2 : dot_S4096x64_S4096x64_S64x64_0_0_1_1_n_n.lhsIdx (ix2 k v) ((contrEquiv1 _ 4096 rfl rfl).symm c) = ix2 c k := by
    funext ax; apply Fin.ext
    match ax with
    | ⟨0, _⟩ => simp [DotDims.lhsIdx, dot_S4096x64_S4096x64_S64x64_0_0_1_1_n_n]; exact c2
    | ⟨1, _⟩ => simp [DotDims.lhsIdx, dot_S4096x64_S4096x64_S64x64_0_0_1_1_n_n]; rfl
  have r2 : dot_S4096x64_S4096x64_S64x64_0_0_1_1_n_n.rhsIdx (ix2 k v) ((contrEquiv1 _ 4096 rfl rfl).symm c) = ix2 c v := by
    funext ax; apply Fin.ext
    match ax with
    | ⟨0, _⟩ => simp [DotDims.rhsIdx, dot_S4096x64_S4096x64_S64x64_0_0_1_1_n_n]; exact c2
    | ⟨1, _⟩ => simp [DotDims.rhsIdx, dot_S4096x64_S4096x64_S64x64_0_0_1_1_n_n]; rfl
  rw [l2, r2]

/-- [4096, 64] · [64, 64]: Q·(Kᵀ·V). -/
theorem mm_qkv (A : FVec Ideal S4096x64 .bf16) (B : FVec Ideal S64x64 .bf16) (s : Fin 4096) (v : Fin 64) :
    matmul dot_S4096x64_S64x64_S4096x64_1_0_0_1_n_n none A B (constant S4096x64 .f32 0x00000000#32) (ix2 s v)
      = ∑ k : Fin 64, A (ix2 s k) * B (ix2 k v) := by
  show FloatOps.matmul _ none A B (constant _ .f32 0x00000000#32) _ = _
  rw [Ideal.matmul_constant_zero_apply, ← Equiv.sum_comp (contrEquiv1 dot_S4096x64_S64x64_S4096x64_1_0_0_1_n_n 64 rfl rfl).symm]
  refine Finset.sum_congr rfl fun c _ => ?_
  have c2 := contrEquiv1_symm_val dot_S4096x64_S64x64_S4096x64_1_0_0_1_n_n 64 rfl rfl c
  have l2 : dot_S4096x64_S64x64_S4096x64_1_0_0_1_n_n.lhsIdx (ix2 s v) ((contrEquiv1 _ 64 rfl rfl).symm c) = ix2 s c := by
    funext ax; apply Fin.ext
    match ax with
    | ⟨0, _⟩ => simp [DotDims.lhsIdx, dot_S4096x64_S64x64_S4096x64_1_0_0_1_n_n]; rfl
    | ⟨1, _⟩ => simp [DotDims.lhsIdx, dot_S4096x64_S64x64_S4096x64_1_0_0_1_n_n]; exact c2
  have r2 : dot_S4096x64_S64x64_S4096x64_1_0_0_1_n_n.rhsIdx (ix2 s v) ((contrEquiv1 _ 64 rfl rfl).symm c) = ix2 c v := by
    funext ax; apply Fin.ext
    match ax with
    | ⟨0, _⟩ => simp [DotDims.rhsIdx, dot_S4096x64_S64x64_S4096x64_1_0_0_1_n_n]; exact c2
    | ⟨1, _⟩ => simp [DotDims.rhsIdx, dot_S4096x64_S64x64_S4096x64_1_0_0_1_n_n]; rfl
  rw [l2, r2]

/-- [4096, 64] · [64, 256]: the output projection. -/
theorem mm_proj (A : FVec Ideal S4096x64 .bf16) (B : FVec Ideal S64x256 .bf16) (s : Fin 4096) (d : Fin 256) :
    matmul dot_S4096x64_S64x256_S4096x256_1_0_0_1_n_n none A B (constant S4096x256 .f32 0x00000000#32) (ix2 s d)
      = ∑ v : Fin 64, A (ix2 s v) * B (ix2 v d) := by
  show FloatOps.matmul _ none A B (constant _ .f32 0x00000000#32) _ = _
  rw [Ideal.matmul_constant_zero_apply, ← Equiv.sum_comp (contrEquiv1 dot_S4096x64_S64x256_S4096x256_1_0_0_1_n_n 64 rfl rfl).symm]
  refine Finset.sum_congr rfl fun c _ => ?_
  have c2 := contrEquiv1_symm_val dot_S4096x64_S64x256_S4096x256_1_0_0_1_n_n 64 rfl rfl c
  have l2 : dot_S4096x64_S64x256_S4096x256_1_0_0_1_n_n.lhsIdx (ix2 s d) ((contrEquiv1 _ 64 rfl rfl).symm c) = ix2 s c := by
    funext ax; apply Fin.ext
    match ax with
    | ⟨0, _⟩ => simp [DotDims.lhsIdx, dot_S4096x64_S64x256_S4096x256_1_0_0_1_n_n]; rfl
    | ⟨1, _⟩ => simp [DotDims.lhsIdx, dot_S4096x64_S64x256_S4096x256_1_0_0_1_n_n]; exact c2
  have r2 : dot_S4096x64_S64x256_S4096x256_1_0_0_1_n_n.rhsIdx (ix2 s d) ((contrEquiv1 _ 64 rfl rfl).symm c) = ix2 c d := by
    funext ax; apply Fin.ext
    match ax with
    | ⟨0, _⟩ => simp [DotDims.rhsIdx, dot_S4096x64_S64x256_S4096x256_1_0_0_1_n_n]; exact c2
    | ⟨1, _⟩ => simp [DotDims.rhsIdx, dot_S4096x64_S64x256_S4096x256_1_0_0_1_n_n]; rfl
  rw [l2, r2]

end Cert.KernelIdeal.LsaDots

end
-- ==== Proof.LsaSpec.lean ====
/-
  Linear self-attention without softmax, stacked four times with a residual connection, as plain functions on
  the extended reals. One layer maps the residual stream x[b, s, d] (4 batches, 4096 positions, 256 features) to
  x + ((x·Wq) · (x·Wk)ᵀ · (x·Wv)) · Wp, and the triple product can be bracketed two ways:

    layerK :  Q · (Kᵀ · V)   — first the 64 × 64 matrix  ∑ₜ K[t,k]·V[t,v],  then  ∑ₖ Q[s,k]·(…)[k,v];
    layerR :  (Q · Kᵀ) · V   — first the 4096 × 4096 scores  ∑ₖ Q[s,k]·K[t,k],  then  ∑ₜ (…)[s,t]·V[t,v].

  On finite entries the two agree (the sums are finite, so products distribute over them and the sums over t and k
  may be exchanged); at infinite entries they need not, which is why the equality is stated for real-valued
  arrays only (LsaAlgebra.lean).
-/
import Idealize.ShloMosaic.PureOps.Ideal
import Idealize.ShloMosaic.Lib.ValueIdx

noncomputable section

open scoped BigOperators

namespace Cert.Lsa

open Idealize.ShloMosaic Idealize.ShloMosaic.ValueIdx

/-- The residual stream: batch × position × feature. -/
abbrev Act : Type := (⟨3, ![4, 4096, 256]⟩ : Shape).Idx → EReal
/-- One layer's query, key or value weights: feature × head dimension. -/
abbrev WIn : Type := (⟨2, ![256, 64]⟩ : Shape).Idx → EReal
/-- One layer's output projection: head dimension × feature. -/
abbrev WOut : Type := (⟨2, ![64, 256]⟩ : Shape).Idx → EReal
/-- The four layers' query, key or value weights, stacked. -/
abbrev WInStack : Type := (⟨3, ![4, 256, 64]⟩ : Shape).Idx → EReal
/-- The four layers' output projections, stacked. -/
abbrev WOutStack : Type := (⟨3, ![4, 64, 256]⟩ : Shape).Idx → EReal

/-- Every entry is a real number (neither infinity). -/
def IsReal {ι : Type} (f : ι → EReal) : Prop := ∀ i, ∃ r : ℝ, f i = (r : EReal)

/-- Member `l` of a stack of matrices. -/
def member {n0 n1 n2 : Nat} (W : (⟨3, ![n0, n1, n2]⟩ : Shape).Idx → EReal) (l : Fin n0) :
    (⟨2, ![n1, n2]⟩ : Shape).Idx → EReal :=
  fun j => W (ix3 l (j 0) (j 1))

theorem member_apply {n0 n1 n2 : Nat} (W : (⟨3, ![n0, n1, n2]⟩ : Shape).Idx → EReal) (l : Fin n0) (a : Fin n1) (b : Fin n2) :
    member W l (ix2 a b) = W (ix3 l a b) := rfl

/-- A stream of `nb` batches (the whole array has 4; one grid point's block has 1). -/
abbrev Stream (nb : Nat) : Type := (⟨3, ![nb, 4096, 256]⟩ : Shape).Idx → EReal

/-- A projection of the stream: entry (b, s, k) of x·w. -/
def proj {nb : Nat} (x : Stream nb) (w : WIn) (b : Fin nb) (s : Fin 4096) (k : Fin 64) : EReal :=
  ∑ d : Fin 256, x (ix3 b s d) * w (ix2 d k)

/-- One layer, bracketed Q · (Kᵀ · V). -/
def layerK {nb : Nat} (x : Stream nb) (wq wk wv : WIn) (wp : WOut) (b : Fin nb) (s : Fin 4096) (d : Fin 256) : EReal :=
  x (ix3 b s d) + ∑ v : Fin 64,
    (∑ k : Fin 64, proj x wq b s k * (∑ t : Fin 4096, proj x wk b t k * proj x wv b t v)) * wp (ix2 v d)

/-- One layer, bracketed (Q · Kᵀ) · V. -/
def layerR {nb : Nat} (x : Stream nb) (wq wk wv : WIn) (wp : WOut) (b : Fin nb) (s : Fin 4096) (d : Fin 256) : EReal :=
  x (ix3 b s d) + ∑ v : Fin 64,
    (∑ t : Fin 4096, (∑ k : Fin 64, proj x wq b s k * proj x wk b t k) * proj x wv b t v) * wp (ix2 v d)

/-- A layer reads only its own batch: two streams that agree on batch `b'` of the one and `b` of the other give the
    same layer output there. -/
theorem layerK_congr {nb nb' : Nat} (x : Stream nb) (x' : Stream nb') (wq wk wv : WIn) (wp : WOut) (b : Fin nb) (b' : Fin nb')
    (h : ∀ s d, x' (ix3 b' s d) = x (ix3 b s d)) (s : Fin 4096) (d : Fin 256) :
    layerK x' wq wk wv wp b' s d = layerK x wq wk wv wp b s d := by
  simp only [layerK, proj, h]

/-- `layerK` as a map of arrays. -/
def LK (x : Act) (wq wk wv : WIn) (wp : WOut) : Act := fun j => layerK x wq wk wv wp (j 0) (j 1) (j 2)
/-- `layerR` as a map of arrays. -/
def LR (x : Act) (wq wk wv : WIn) (wp : WOut) : Act := fun j => layerR x wq wk wv wp (j 0) (j 1) (j 2)

theorem LK_apply (x : Act) (wq wk wv : WIn) (wp : WOut) (b : Fin 4) (s : Fin 4096) (d : Fin 256) :
    LK x wq wk wv wp (ix3 b s d) = layerK x wq wk wv wp b s d := rfl
theorem LR_apply (x : Act) (wq wk wv : WIn) (wp : WOut) (b : Fin 4) (s : Fin 4096) (d : Fin 256) :
    LR x wq wk wv wp (ix3 b s d) = layerR x wq wk wv wp b s d := rfl

/-- Layer `l` of the stack, in the first bracketing. -/
def stepK (Wq Wk Wv : WInStack) (Wp : WOutStack) (l : Fin 4) (x : Act) : Act :=
  LK x (member Wq l) (member Wk l) (member Wv l) (member Wp l)
/-- Layer `l` of the stack, in the second bracketing. -/
def stepR (Wq Wk Wv : WInStack) (Wp : WOutStack) (l : Fin 4) (x : Act) : Act :=
  LR x (member Wq l) (member Wk l) (member Wv l) (member Wp l)

/-- The four layers in order, first bracketing. -/
def netK (x : Act) (Wq Wk Wv : WInStack) (Wp : WOutStack) : Act :=
  stepK Wq Wk Wv Wp 3 (stepK Wq Wk Wv Wp 2 (stepK Wq Wk Wv Wp 1 (stepK Wq Wk Wv Wp 0 x)))
/-- The four layers in order, second bracketing. -/
def netR (x : Act) (Wq Wk Wv : WInStack) (Wp : WOutStack) : Act :=
  stepR Wq Wk Wv Wp 3 (stepR Wq Wk Wv Wp 2 (stepR Wq Wk Wv Wp 1 (stepR Wq Wk Wv Wp 0 x)))

end Cert.Lsa

end
-- ==== Proof.KernelPayload.lean ====
/-
  What one grid point of the kernel stores: for the point's batch block x0 (one batch, 4096 positions, 256
  features) and the layer's four weight matrices, entry (0, s, d) of the stored block is one layer applied to the
  block, in the bracketing Q·(Kᵀ·V). The conversions to bf16 before each product are the identity on exact values.
-/
import proofs.«111333_j71511205478734_1_alg».proof.Proof.Gen.KernelIdeal.Skeleton
import proofs.«111333_j71511205478734_1_alg».proof.Proof.KernelDots
import proofs.«111333_j71511205478734_1_alg».proof.Proof.LsaSpec

noncomputable section

open scoped BigOperators

namespace Cert.KernelIdeal.LsaPayload

open Cert.KernelIdeal Cert.KernelIdeal.Gen Idealize.ShloMosaic Idealize.ShloMosaic.ValueIdx

open Cert.KernelIdeal.LsaDots

/-- The block with its unit batch axis dropped, read at (s, d), is the block at (0, s, d). -/
private theorem drop_apply (x0 : Vec Ideal S1x4096x256 .f32) (s : Fin 4096) (d : Fin 256) :
    shapeCast S4096x256 x0 shapeCasts_S1x4096x256_S4096x256 (ix2 s d) = x0 (ix3 (0 : Fin 1) s d) :=
  shapeCast_apply x0 _ (ix2 s d) (ix3 (0 : Fin 1) s d) (by
    rw [Shape.rowMajor_val_three, Shape.rowMajor_val_two]
    show ((0 : Nat) * 4096 + s.val) * 256 + d.val = s.val * 256 + d.val
    omega)

/-- The unit batch axis put back: the result at (0, s, d) is the matrix at (s, d). -/
private theorem lift_apply (y : FVec Ideal S4096x256 .f32) (s : Fin 4096) (d : Fin 256) :
    shapeCast S1x4096x256 y shapeCasts_S4096x256_S1x4096x256 (ix3 (0 : Fin 1) s d) = y (ix2 s d) :=
  shapeCast_apply y _ (ix3 (0 : Fin 1) s d) (ix2 s d) (by
    rw [Shape.rowMajor_val_three, Shape.rowMajor_val_two]
    show s.val * 256 + d.val = ((0 : Nat) * 4096 + s.val) * 256 + d.val
    omega)

/-- A projection of the stream: the narrowing of both operands is the identity on exact values. -/
private theorem xw_apply (X : FVec Ideal S4096x256 .f32) (W : FVec Ideal S256x64 .f32) (s : Fin 4096) (k : Fin 64) :
    matmul dot_S4096x256_S256x64_S4096x64_1_0_0_1_n_n none (truncf .bf16 X bitsLt_bf16_f32) (truncf .bf16 W bitsLt_bf16_f32)
        (constant S4096x64 .f32 0x00000000#32) (ix2 s k)
      = ∑ d : Fin 256, X (ix2 s d) * W (ix2 d k) :=
  mm_xw _ _ s k

/-- Kᵀ·V from the two projections. -/
private theorem ktv_apply (K V : FVec Ideal S4096x64 .f32) (k v : Fin 64) :
    matmul dot_S4096x64_S4096x64_S64x64_0_0_1_1_n_n none (truncf .bf16 K bitsLt_bf16_f32) (truncf .bf16 V bitsLt_bf16_f32)
        (constant S64x64 .f32 0x00000000#32) (ix2 k v)
      = ∑ t : Fin 4096, K (ix2 t k) * V (ix2 t v) :=
  mm_ktv _ _ k v

/-- Q·(Kᵀ·V). -/
private theorem qkv_apply (Q : FVec Ideal S4096x64 .f32) (M : FVec Ideal S64x64 .f32) (s : Fin 4096) (v : Fin 64) :
    matmul dot_S4096x64_S64x64_S4096x64_1_0_0_1_n_n none (truncf .bf16 Q bitsLt_bf16_f32) (truncf .bf16 M bitsLt_bf16_f32)
        (constant S4096x64 .f32 0x00000000#32) (ix2 s v)
      = ∑ k : Fin 64, Q (ix2 s k) * M (ix2 k v) :=
  mm_qkv _ _ s v

/-- The output projection. -/
private theorem proj_apply (Y : FVec Ideal S4096x64 .f32) (W : FVec Ideal S64x256 .f32) (s : Fin 4096) (d : Fin 256) :
    matmul dot_S4096x64_S64x256_S4096x256_1_0_0_1_n_n none (truncf .bf16 Y bitsLt_bf16_f32) (truncf .bf16 W bitsLt_bf16_f32)
        (constant S4096x256 .f32 0x00000000#32) (ix2 s d)
      = ∑ v : Fin 64, Y (ix2 s v) * W (ix2 v d) :=
  mm_proj _ _ s d

/-- The stored block of the first launch's body, entry by entry. -/
theorem pay0_apply (x0 : Vec Ideal S1x4096x256 .f32) (wq wk wv : Vec Ideal S256x64 .f32) (wp : Vec Ideal S64x256 .f32)
    (s : Fin 4096) (d : Fin 256) :
    k0_pay1 (F := Ideal) x0 wq wk wv wp (ix3 (0 : Fin 1) s d) = Cert.Lsa.layerK (nb := 1) x0 wq wk wv wp 0 s d := by
  unfold k0_pay1 Cert.Lsa.layerK Cert.Lsa.proj
  simp only [shapeCast_self]
  refine (lift_apply _ s d).trans ?_
  refine (addf_apply _ _ _).trans ?_
  refine congrArg₂ (· + ·) (drop_apply x0 s d) ?_
  refine (proj_apply _ _ s d).trans ?_
  refine Finset.sum_congr rfl fun v _ => ?_
  refine congrArg (· * wp (ix2 v d)) ?_
  refine (qkv_apply _ _ s v).trans ?_
  refine Finset.sum_congr rfl fun k _ => ?_
  rw [xw_apply, ktv_apply]
  simp only [xw_apply]
  refine congrArg₂ (· * ·) (Finset.sum_congr rfl fun e _ => congrArg (· * wq (ix2 e k)) (drop_apply x0 s e))
    (Finset.sum_congr rfl fun t _ => ?_)
  exact congrArg₂ (· * ·) (Finset.sum_congr rfl fun e _ => congrArg (· * wk (ix2 e k)) (drop_apply x0 t e))
    (Finset.sum_congr rfl fun e _ => congrArg (· * wv (ix2 e v)) (drop_apply x0 t e))

/-- The other three launches run the same body. -/
theorem pay1_apply (x0 : Vec Ideal S1x4096x256 .f32) (wq wk wv : Vec Ideal S256x64 .f32) (wp : Vec Ideal S64x256 .f32)
    (s : Fin 4096) (d : Fin 256) :
    k1_pay1 (F := Ideal) x0 wq wk wv wp (ix3 (0 : Fin 1) s d) = Cert.Lsa.layerK (nb := 1) x0 wq wk wv wp 0 s d :=
  pay0_apply x0 wq wk wv wp s d
theorem pay2_apply (x0 : Vec Ideal S1x4096x256 .f32) (wq wk wv : Vec Ideal S256x64 .f32) (wp : Vec Ideal S64x256 .f32)
    (s : Fin 4096) (d : Fin 256) :
    k2_pay1 (F := Ideal) x0 wq wk wv wp (ix3 (0 : Fin 1) s d) = Cert.Lsa.layerK (nb := 1) x0 wq wk wv wp 0 s d :=
  pay0_apply x0 wq wk wv wp s d
theorem pay3_apply (x0 : Vec Ideal S1x4096x256 .f32) (wq wk wv : Vec Ideal S256x64 .f32) (wp : Vec Ideal S64x256 .f32)
    (s : Fin 4096) (d : Fin 256) :
    k3_pay1 (F := Ideal) x0 wq wk wv wp (ix3 (0 : Fin 1) s d) = Cert.Lsa.layerK (nb := 1) x0 wq wk wv wp 0 s d :=
  pay0_apply x0 wq wk wv wp s d

end Cert.KernelIdeal.LsaPayload

end
-- ==== Proof.KernelRegion0.lean ====
/-
  Launch 0 of the kernel as a map of whole arrays: whatever the five input arrays hold when the launch is entered,
  the output array after its four grid points (one per batch, each writing its own batch's block) is one layer
  applied to the stream, in the bracketing Q·(Kᵀ·V).
-/
import proofs.«111333_j71511205478734_1_alg».proof.Proof.Gen.KernelIdeal.Frame
import proofs.«111333_j71511205478734_1_alg».proof.Proof.KernelPayload

noncomputable section

namespace Cert.KernelIdeal.LsaRegion0

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-- Zero offsets on three axes, however spelt. -/
theorem zeros3 : (![0, 0, 0] : Fin 3 → Nat) = fun _ => 0 :=
  funext fun a => by match a with | ⟨0, _⟩ => rfl | ⟨1, _⟩ => rfl | ⟨2, _⟩ => rfl
/-- Zero offsets on two axes. -/
theorem zeros2 : (![0, 0] : Fin 2 → Nat) = fun _ => 0 :=
  funext fun a => by match a with | ⟨0, _⟩ => rfl | ⟨1, _⟩ => rfl

/-- The block index of each window at each grid point: the stream's and the output's block is the point's batch,
    a weight matrix's block is the whole matrix at every point. -/
theorem block_indices : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- The stream's block at a point, under its literal type. -/
abbrev xblk (c : Dev nD) (t : Fin cfg0.N) : Vec Ideal S1x4096x256 .f32 := iblk0 V c 0 t
/-- The four weight matrices' blocks at a point. -/
abbrev qblk (c : Dev nD) (t : Fin cfg0.N) : Vec Ideal S256x64 .f32 := iblk0 V c 1 t
abbrev kblk (c : Dev nD) (t : Fin cfg0.N) : Vec Ideal S256x64 .f32 := iblk0 V c 2 t
abbrev vblk (c : Dev nD) (t : Fin cfg0.N) : Vec Ideal S256x64 .f32 := iblk0 V c 3 t
abbrev pblk (c : Dev nD) (t : Fin cfg0.N) : Vec Ideal S64x256 .f32 := iblk0 V c 4 t

/-- The stream's block at point `t` is batch `t` of the stream. -/
theorem xblk_apply (c : Dev nD) (t : Fin cfg0.N) (s : Fin 4096) (d : Fin 256) (b : Fin 4) (hb : b.val = t.val) :
    xblk V c t (ix3 0 s d) = (V c (Pipeline.arrRef spec0 0) : S4x4096x256.Idx → EReal) (ix3 b s d) := by
  obtain ⟨e0, e1, e2, -⟩ := block_indices t
  unfold xblk iblk0
  rw [View.read_apply]
  refine congrArg (V c (Pipeline.arrRef spec0 0)) ?_
  funext a
  apply Fin.ext
  match a with
  | ⟨0, _⟩ => show win0_0.index t (0 : Fin 3) * 1 + 1 * 0 = b.val; omega
  | ⟨1, _⟩ => show win0_0.index t (1 : Fin 3) * 4096 + 1 * s.val = s.val; omega
  | ⟨2, _⟩ => show win0_0.index t (2 : Fin 3) * 256 + 1 * d.val = d.val; omega

/-- Each weight matrix's block is the whole matrix. -/
theorem qblk_eq (c : Dev nD) (t : Fin cfg0.N) : qblk V c t = V c (Pipeline.arrRef spec0 1) := by
  obtain ⟨-, -, -, e0, e1, -⟩ := block_indices t
  funext j
  unfold qblk iblk0
  rw [View.read_apply]
  refine congrArg (V c (Pipeline.arrRef spec0 1)) ?_
  funext a
  apply Fin.ext
  match a with
  | ⟨0, _⟩ => show win0_1.index t (0 : Fin 2) * 256 + 1 * (j 0).val = (j 0).val; omega
  | ⟨1, _⟩ => show win0_1.index t (1 : Fin 2) * 64 + 1 * (j 1).val = (j 1).val; omega

theorem kblk_eq (c : Dev nD) (t : Fin cfg0.N) : kblk V c t = V c (Pipeline.arrRef spec0 2) := by
  obtain ⟨-, -, -, -, -, e0, e1, -⟩ := block_indices t
  funext j
  unfold kblk iblk0
  rw [View.read_apply]
  refine congrArg (V c (Pipeline.arrRef spec0 2)) ?_
  funext a
  apply Fin.ext
  match a with
  | ⟨0, _⟩ => show win0_2.index t (0 : Fin 2) * 256 + 1 * (j 0).val = (j 0).val; omega
  | ⟨1, _⟩ => show win0_2.index t (1 : Fin 2) * 64 + 1 * (j 1).val = (j 1).val; omega

theorem vblk_eq (c : Dev nD) (t : Fin cfg0.N) : vblk V c t = V c (Pipeline.arrRef spec0 3) := by
  obtain ⟨-, -, -, -, -, -, -, e0, e1, -⟩ := block_indices t
  funext j
  unfold vblk iblk0
  rw [View.read_apply]
  refine congrArg (V c (Pipeline.arrRef spec0 3)) ?_
  funext a
  apply Fin.ext
  match a with
  | ⟨0, _⟩ => show win0_3.index t (0 : Fin 2) * 256 + 1 * (j 0).val = (j 0).val; omega
  | ⟨1, _⟩ => show win0_3.index t (1 : Fin 2) * 64 + 1 * (j 1).val = (j 1).val; omega

theorem pblk_eq (c : Dev nD) (t : Fin cfg0.N) : pblk V c t = V c (Pipeline.arrRef spec0 4) := by
  obtain ⟨-, -, -, -, -, -, -, -, -, e0, e1, -⟩ := block_indices t
  funext j
  unfold pblk iblk0
  rw [View.read_apply]
  refine congrArg (V c (Pipeline.arrRef spec0 4)) ?_
  funext a
  apply Fin.ext
  match a with
  | ⟨0, _⟩ => show win0_4.index t (0 : Fin 2) * 64 + 1 * (j 0).val = (j 0).val; omega
  | ⟨1, _⟩ => show win0_4.index t (1 : Fin 2) * 256 + 1 * (j 1).val = (j 1).val; omega

/-- One point's stored block, entry by entry, is the layer of the whole stream at the point's batch: the layer
    reads only that batch, and the point's block is that batch. -/
theorem stored_apply (X : Cert.Lsa.Act) (xb : Vec Ideal S1x4096x256 .f32) (wq wk wv : Vec Ideal S256x64 .f32)
    (wp : Vec Ideal S64x256 .f32) (b : Fin 4) (hx : ∀ s d, xb (ix3 0 s d) = X (ix3 b s d))
    (y : S1x4096x256.Idx) (i : S4x4096x256.Idx)
    (h0 : (i 0).val = b.val) (h1 : (i 1).val = (y 1).val) (h2 : (i 2).val = (y 2).val) :
    k0_pay1 (F := Ideal) xb wq wk wv wp y = Cert.Lsa.LK X wq wk wv wp i := by
  obtain ⟨p, s, d, rfl⟩ : ∃ (p : Fin 1) (s : Fin 4096) (d : Fin 256), y = ix3 p s d := ⟨y 0, y 1, y 2, eq_ix3 y⟩
  obtain rfl : p = 0 := Fin.ext (by omega)
  obtain ⟨b', s', d', rfl⟩ : ∃ (b' : Fin 4) (s' : Fin 4096) (d' : Fin 256), i = ix3 b' s' d' := ⟨i 0, i 1, i 2, eq_ix3 i⟩
  obtain rfl : b' = b := Fin.ext h0
  obtain rfl : s' = s := Fin.ext h1
  obtain rfl : d' = d := Fin.ext h2
  rw [Cert.KernelIdeal.LsaPayload.pay0_apply, Cert.Lsa.LK_apply]
  exact Cert.Lsa.layerK_congr X xb wq wk wv wp b' 0 hx s' d'

/-- What point `t` writes back is block `t` of the layer applied to the whole stream. -/
theorem written_block (c : Dev nD) (t : Fin cfg0.N) :
    (dat0 (F := Ideal) V c).flushed 5 t = ((cfg0.win 5).blk t).view.read (Elt Ideal)
      (Cert.Lsa.LK (V c (Pipeline.arrRef spec0 0)) (V c (Pipeline.arrRef spec0 1)) (V c (Pipeline.arrRef spec0 2))
          (V c (Pipeline.arrRef spec0 3)) (V c (Pipeline.arrRef spec0 4))) := by
  show (cfg0.win 5).cut (grid0.coords t) ((dat0 V c).after 5 t) = _
  rw [after0_5]
  unfold out0_5
  rw [View.canon_unit_zero zeros3]
  simp only [View.ld_unit_zero (S := S1x4096x256) zeros3, View.ld_unit_zero (S := S256x64) zeros2, View.ld_unit_zero (S := S64x256) zeros2]
  obtain ⟨-, -, -, -, -, -, -, -, -, -, -, e0, e1, e2⟩ := block_indices t
  have hN : cfg0.N = 4 := N_0
  funext y
  rw [View.read_apply]
  show k0_pay1 (F := Ideal) (xblk V c t) (qblk V c t) (kblk V c t) (vblk V c t) (pblk V c t) ((cfg0.win 5).xinj (grid0.coords t) y) = _
  rw [qblk_eq, kblk_eq, vblk_eq, pblk_eq]
  refine stored_apply (V c (Pipeline.arrRef spec0 0)) (xblk V c t) _ _ _ _ ⟨t.val, by have := t.isLt; omega⟩
    (fun s d => xblk_apply V c t s d _ rfl) _ _ ?_ ?_ ?_
  · show win0_5.index t (0 : Fin 3) * 1 + 1 * (y 0).val = t.val
    have hy : (y 0).val < 1 := (y 0).isLt
    omega
  · show win0_5.index t (1 : Fin 3) * 4096 + 1 * (y 1).val = (y 1).val; omega
  · show win0_5.index t (2 : Fin 3) * 256 + 1 * (y 2).val = (y 2).val; omega

/-- An index of the output array is in point `t`'s block iff each coordinate is in the block's range on its axis. -/
theorem mem_block (t : Fin cfg0.N) (i : S4x4096x256.Idx) :
    i ∈ ((cfg0.win 5).blk t).view.set ↔ ∀ a : Fin 3, win0_5.index t a * S1x4096x256.size a ≤ (i a).val ∧ (i a).val < win0_5.index t a * S1x4096x256.size a + S1x4096x256.size a := by
  show i ∈ ((View.whole (Pipeline.arrRef spec0 5)).slice (win0_5.rect t)).set ↔ _
  rw [View.set_slice_whole, Rect.mem_set_unit]
  exact Iff.rfl

/-- Every index of the output array lies in the block of the point that is its batch. -/
theorem covered (i : S4x4096x256.Idx) :
    ∃ t : Fin cfg0.N, (cfg0.win 5).flush t = true ∧ i ∈ ((cfg0.win 5).blk t).view.set := by
  have hN : cfg0.N = 4 := N_0
  have hi0 : (i 0).val < 4 := (i 0).isLt
  have hi1 : (i 1).val < 4096 := (i 1).isLt
  have hi2 : (i 2).val < 256 := (i 2).isLt
  obtain ⟨t, ht⟩ : ∃ t : Fin cfg0.N, t.val = (i 0).val := ⟨⟨(i 0).val, by omega⟩, rfl⟩
  refine ⟨t, flush0_5 t, ?_⟩
  rw [mem_block]
  obtain ⟨-, -, -, -, -, -, -, -, -, -, -, e0, e1, e2⟩ := block_indices t
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 4096 ≤ (i 1).val ∧ (i 1).val < win0_5.index t (1 : Fin 3) * 4096 + 4096; omega
  | ⟨2, _⟩ => show win0_5.index t (2 : Fin 3) * 256 ≤ (i 2).val ∧ (i 2).val < win0_5.index t (2 : Fin 3) * 256 + 256; omega

/-- The output array once every grid point has written its block back. -/
theorem value (c : Dev nD) :
    (dat0 (F := Ideal) V c).arrAt 5 cfg0.N
      = Cert.Lsa.LK (V c (Pipeline.arrRef spec0 0)) (V c (Pipeline.arrRef spec0 1)) (V c (Pipeline.arrRef spec0 2))
          (V c (Pipeline.arrRef spec0 3)) (V c (Pipeline.arrRef spec0 4)) :=
  (dat0 (F := Ideal) V c).arrAt_eq_of_cover 5 _ (fun t _ => written_block V c t) covered

end Cert.KernelIdeal.LsaRegion0

end
-- ==== Proof.KernelRegion1.lean ====
/-
  Launch 1 of the kernel as a map of whole arrays: whatever the five input arrays hold when the launch is entered,
  the output array after its four grid points (one per batch, each writing its own batch's block) is one layer
  applied to the stream, in the bracketing Q·(Kᵀ·V).
-/
import proofs.«111333_j71511205478734_1_alg».proof.Proof.Gen.KernelIdeal.Frame
import proofs.«111333_j71511205478734_1_alg».proof.Proof.KernelPayload

noncomputable section

namespace Cert.KernelIdeal.LsaRegion1

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-- Zero offsets on three axes, however spelt. -/
theorem zeros3 : (![0, 0, 0] : Fin 3 → Nat) = fun _ => 0 :=
  funext fun a => by match a with | ⟨0, _⟩ => rfl | ⟨1, _⟩ => rfl | ⟨2, _⟩ => rfl
/-- Zero offsets on two axes. -/
theorem zeros2 : (![0, 0] : Fin 2 → Nat) = fun _ => 0 :=
  funext fun a => by match a with | ⟨0, _⟩ => rfl | ⟨1, _⟩ => rfl

/-- The block index of each window at each grid point: the stream's and the output's block is the point's batch,
    a weight matrix's block is the whole matrix at every point. -/
theorem block_indices : ∀ t : Fin cfg1.N,
    win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 3) = t.val ∧ win1_5.index t (1 : Fin 3) = 0 ∧ win1_5.index t (2 : Fin 3) = 0 :=
  (by decide +kernel : ∀ t : Fin grid1.N, _)

/-- The stream's block at a point, under its literal type. -/
abbrev xblk (c : Dev nD) (t : Fin cfg1.N) : Vec Ideal S1x4096x256 .f32 := iblk1 V c 0 t
/-- The four weight matrices' blocks at a point. -/
abbrev qblk (c : Dev nD) (t : Fin cfg1.N) : Vec Ideal S256x64 .f32 := iblk1 V c 1 t
abbrev kblk (c : Dev nD) (t : Fin cfg1.N) : Vec Ideal S256x64 .f32 := iblk1 V c 2 t
abbrev vblk (c : Dev nD) (t : Fin cfg1.N) : Vec Ideal S256x64 .f32 := iblk1 V c 3 t
abbrev pblk (c : Dev nD) (t : Fin cfg1.N) : Vec Ideal S64x256 .f32 := iblk1 V c 4 t

/-- The stream's block at point `t` is batch `t` of the stream. -/
theorem xblk_apply (c : Dev nD) (t : Fin cfg1.N) (s : Fin 4096) (d : Fin 256) (b : Fin 4) (hb : b.val = t.val) :
    xblk V c t (ix3 0 s d) = (V c (Pipeline.arrRef spec1 0) : S4x4096x256.Idx → EReal) (ix3 b s d) := by
  obtain ⟨e0, e1, e2, -⟩ := block_indices t
  unfold xblk iblk1
  rw [View.read_apply]
  refine congrArg (V c (Pipeline.arrRef spec1 0)) ?_
  funext a
  apply Fin.ext
  match a with
  | ⟨0, _⟩ => show win1_0.index t (0 : Fin 3) * 1 + 1 * 0 = b.val; omega
  | ⟨1, _⟩ => show win1_0.index t (1 : Fin 3) * 4096 + 1 * s.val = s.val; omega
  | ⟨2, _⟩ => show win1_0.index t (2 : Fin 3) * 256 + 1 * d.val = d.val; omega

/-- Each weight matrix's block is the whole matrix. -/
theorem qblk_eq (c : Dev nD) (t : Fin cfg1.N) : qblk V c t = V c (Pipeline.arrRef spec1 1) := by
  obtain ⟨-, -, -, e0, e1, -⟩ := block_indices t
  funext j
  unfold qblk iblk1
  rw [View.read_apply]
  refine congrArg (V c (Pipeline.arrRef spec1 1)) ?_
  funext a
  apply Fin.ext
  match a with
  | ⟨0, _⟩ => show win1_1.index t (0 : Fin 2) * 256 + 1 * (j 0).val = (j 0).val; omega
  | ⟨1, _⟩ => show win1_1.index t (1 : Fin 2) * 64 + 1 * (j 1).val = (j 1).val; omega

theorem kblk_eq (c : Dev nD) (t : Fin cfg1.N) : kblk V c t = V c (Pipeline.arrRef spec1 2) := by
  obtain ⟨-, -, -, -, -, e0, e1, -⟩ := block_indices t
  funext j
  unfold kblk iblk1
  rw [View.read_apply]
  refine congrArg (V c (Pipeline.arrRef spec1 2)) ?_
  funext a
  apply Fin.ext
  match a with
  | ⟨0, _⟩ => show win1_2.index t (0 : Fin 2) * 256 + 1 * (j 0).val = (j 0).val; omega
  | ⟨1, _⟩ => show win1_2.index t (1 : Fin 2) * 64 + 1 * (j 1).val = (j 1).val; omega

theorem vblk_eq (c : Dev nD) (t : Fin cfg1.N) : vblk V c t = V c (Pipeline.arrRef spec1 3) := by
  obtain ⟨-, -, -, -, -, -, -, e0, e1, -⟩ := block_indices t
  funext j
  unfold vblk iblk1
  rw [View.read_apply]
  refine congrArg (V c (Pipeline.arrRef spec1 3)) ?_
  funext a
  apply Fin.ext
  match a with
  | ⟨0, _⟩ => show win1_3.index t (0 : Fin 2) * 256 + 1 * (j 0).val = (j 0).val; omega
  | ⟨1, _⟩ => show win1_3.index t (1 : Fin 2) * 64 + 1 * (j 1).val = (j 1).val; omega

theorem pblk_eq (c : Dev nD) (t : Fin cfg1.N) : pblk V c t = V c (Pipeline.arrRef spec1 4) := by
  obtain ⟨-, -, -, -, -, -, -, -, -, e0, e1, -⟩ := block_indices t
  funext j
  unfold pblk iblk1
  rw [View.read_apply]
  refine congrArg (V c (Pipeline.arrRef spec1 4)) ?_
  funext a
  apply Fin.ext
  match a with
  | ⟨0, _⟩ => show win1_4.index t (0 : Fin 2) * 64 + 1 * (j 0).val = (j 0).val; omega
  | ⟨1, _⟩ => show win1_4.index t (1 : Fin 2) * 256 + 1 * (j 1).val = (j 1).val; omega

/-- One point's stored block, entry by entry, is the layer of the whole stream at the point's batch: the layer
    reads only that batch, and the point's block is that batch. -/
theorem stored_apply (X : Cert.Lsa.Act) (xb : Vec Ideal S1x4096x256 .f32) (wq wk wv : Vec Ideal S256x64 .f32)
    (wp : Vec Ideal S64x256 .f32) (b : Fin 4) (hx : ∀ s d, xb (ix3 0 s d) = X (ix3 b s d))
    (y : S1x4096x256.Idx) (i : S4x4096x256.Idx)
    (h0 : (i 0).val = b.val) (h1 : (i 1).val = (y 1).val) (h2 : (i 2).val = (y 2).val) :
    k1_pay1 (F := Ideal) xb wq wk wv wp y = Cert.Lsa.LK X wq wk wv wp i := by
  obtain ⟨p, s, d, rfl⟩ : ∃ (p : Fin 1) (s : Fin 4096) (d : Fin 256), y = ix3 p s d := ⟨y 0, y 1, y 2, eq_ix3 y⟩
  obtain rfl : p = 0 := Fin.ext (by omega)
  obtain ⟨b', s', d', rfl⟩ : ∃ (b' : Fin 4) (s' : Fin 4096) (d' : Fin 256), i = ix3 b' s' d' := ⟨i 0, i 1, i 2, eq_ix3 i⟩
  obtain rfl : b' = b := Fin.ext h0
  obtain rfl : s' = s := Fin.ext h1
  obtain rfl : d' = d := Fin.ext h2
  rw [Cert.KernelIdeal.LsaPayload.pay1_apply, Cert.Lsa.LK_apply]
  exact Cert.Lsa.layerK_congr X xb wq wk wv wp b' 0 hx s' d'

/-- What point `t` writes back is block `t` of the layer applied to the whole stream. -/
theorem written_block (c : Dev nD) (t : Fin cfg1.N) :
    (dat1 (F := Ideal) V c).flushed 5 t = ((cfg1.win 5).blk t).view.read (Elt Ideal)
      (Cert.Lsa.LK (V c (Pipeline.arrRef spec1 0)) (V c (Pipeline.arrRef spec1 1)) (V c (Pipeline.arrRef spec1 2))
          (V c (Pipeline.arrRef spec1 3)) (V c (Pipeline.arrRef spec1 4))) := by
  show (cfg1.win 5).cut (grid1.coords t) ((dat1 V c).after 5 t) = _
  rw [after1_5]
  unfold out1_5
  rw [View.canon_unit_zero zeros3]
  simp only [View.ld_unit_zero (S := S1x4096x256) zeros3, View.ld_unit_zero (S := S256x64) zeros2, View.ld_unit_zero (S := S64x256) zeros2]
  obtain ⟨-, -, -, -, -, -, -, -, -, -, -, e0, e1, e2⟩ := block_indices t
  have hN : cfg1.N = 4 := N_1
  funext y
  rw [View.read_apply]
  show k1_pay1 (F := Ideal) (xblk V c t) (qblk V c t) (kblk V c t) (vblk V c t) (pblk V c t) ((cfg1.win 5).xinj (grid1.coords t) y) = _
  rw [qblk_eq, kblk_eq, vblk_eq, pblk_eq]
  refine stored_apply (V c (Pipeline.arrRef spec1 0)) (xblk V c t) _ _ _ _ ⟨t.val, by have := t.isLt; omega⟩
    (fun s d => xblk_apply V c t s d _ rfl) _ _ ?_ ?_ ?_
  · show win1_5.index t (0 : Fin 3) * 1 + 1 * (y 0).val = t.val
    have hy : (y 0).val < 1 := (y 0).isLt
    omega
  · show win1_5.index t (1 : Fin 3) * 4096 + 1 * (y 1).val = (y 1).val; omega
  · show win1_5.index t (2 : Fin 3) * 256 + 1 * (y 2).val = (y 2).val; omega

/-- An index of the output array is in point `t`'s block iff each coordinate is in the block's range on its axis. -/
theorem mem_block (t : Fin cfg1.N) (i : S4x4096x256.Idx) :
    i ∈ ((cfg1.win 5).blk t).view.set ↔ ∀ a : Fin 3, win1_5.index t a * S1x4096x256.size a ≤ (i a).val ∧ (i a).val < win1_5.index t a * S1x4096x256.size a + S1x4096x256.size a := by
  show i ∈ ((View.whole (Pipeline.arrRef spec1 5)).slice (win1_5.rect t)).set ↔ _
  rw [View.set_slice_whole, Rect.mem_set_unit]
  exact Iff.rfl

/-- Every index of the output array lies in the block of the point that is its batch. -/
theorem covered (i : S4x4096x256.Idx) :
    ∃ t : Fin cfg1.N, (cfg1.win 5).flush t = true ∧ i ∈ ((cfg1.win 5).blk t).view.set := by
  have hN : cfg1.N = 4 := N_1
  have hi0 : (i 0).val < 4 := (i 0).isLt
  have hi1 : (i 1).val < 4096 := (i 1).isLt
  have hi2 : (i 2).val < 256 := (i 2).isLt
  obtain ⟨t, ht⟩ : ∃ t : Fin cfg1.N, t.val = (i 0).val := ⟨⟨(i 0).val, by omega⟩, rfl⟩
  refine ⟨t, flush1_5 t, ?_⟩
  rw [mem_block]
  obtain ⟨-, -, -, -, -, -, -, -, -, -, -, e0, e1, e2⟩ := block_indices t
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 4096 ≤ (i 1).val ∧ (i 1).val < win1_5.index t (1 : Fin 3) * 4096 + 4096; omega
  | ⟨2, _⟩ => show win1_5.index t (2 : Fin 3) * 256 ≤ (i 2).val ∧ (i 2).val < win1_5.index t (2 : Fin 3) * 256 + 256; omega

/-- The output array once every grid point has written its block back. -/
theorem value (c : Dev nD) :
    (dat1 (F := Ideal) V c).arrAt 5 cfg1.N
      = Cert.Lsa.LK (V c (Pipeline.arrRef spec1 0)) (V c (Pipeline.arrRef spec1 1)) (V c (Pipeline.arrRef spec1 2))
          (V c (Pipeline.arrRef spec1 3)) (V c (Pipeline.arrRef spec1 4)) :=
  (dat1 (F := Ideal) V c).arrAt_eq_of_cover 5 _ (fun t _ => written_block V c t) covered

end Cert.KernelIdeal.LsaRegion1

end
-- ==== Proof.KernelRegion2.lean ====
/-
  Launch 2 of the kernel as a map of whole arrays: whatever the five input arrays hold when the launch is entered,
  the output array after its four grid points (one per batch, each writing its own batch's block) is one layer
  applied to the stream, in the bracketing Q·(Kᵀ·V).
-/
import proofs.«111333_j71511205478734_1_alg».proof.Proof.Gen.KernelIdeal.Frame
import proofs.«111333_j71511205478734_1_alg».proof.Proof.KernelPayload

noncomputable section

namespace Cert.KernelIdeal.LsaRegion2

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-- Zero offsets on three axes, however spelt. -/
theorem zeros3 : (![0, 0, 0] : Fin 3 → Nat) = fun _ => 0 :=
  funext fun a => by match a with | ⟨0, _⟩ => rfl | ⟨1, _⟩ => rfl | ⟨2, _⟩ => rfl
/-- Zero offsets on two axes. -/
theorem zeros2 : (![0, 0] : Fin 2 → Nat) = fun _ => 0 :=
  funext fun a => by match a with | ⟨0, _⟩ => rfl | ⟨1, _⟩ => rfl

/-- The block index of each window at each grid point: the stream's and the output's block is the point's batch,
    a weight matrix's block is the whole matrix at every point. -/
theorem block_indices : ∀ t : Fin cfg2.N,
    win2_0.index t (0 : Fin 3) = t.val ∧ win2_0.index t (1 : Fin 3) = 0 ∧ win2_0.index t (2 : Fin 3) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 3) = t.val ∧ win2_5.index t (1 : Fin 3) = 0 ∧ win2_5.index t (2 : Fin 3) = 0 :=
  (by decide +kernel : ∀ t : Fin grid2.N, _)

/-- The stream's block at a point, under its literal type. -/
abbrev xblk (c : Dev nD) (t : Fin cfg2.N) : Vec Ideal S1x4096x256 .f32 := iblk2 V c 0 t
/-- The four weight matrices' blocks at a point. -/
abbrev qblk (c : Dev nD) (t : Fin cfg2.N) : Vec Ideal S256x64 .f32 := iblk2 V c 1 t
abbrev kblk (c : Dev nD) (t : Fin cfg2.N) : Vec Ideal S256x64 .f32 := iblk2 V c 2 t
abbrev vblk (c : Dev nD) (t : Fin cfg2.N) : Vec Ideal S256x64 .f32 := iblk2 V c 3 t
abbrev pblk (c : Dev nD) (t : Fin cfg2.N) : Vec Ideal S64x256 .f32 := iblk2 V c 4 t

/-- The stream's block at point `t` is batch `t` of the stream. -/
theorem xblk_apply (c : Dev nD) (t : Fin cfg2.N) (s : Fin 4096) (d : Fin 256) (b : Fin 4) (hb : b.val = t.val) :
    xblk V c t (ix3 0 s d) = (V c (Pipeline.arrRef spec2 0) : S4x4096x256.Idx → EReal) (ix3 b s d) := by
  obtain ⟨e0, e1, e2, -⟩ := block_indices t
  unfold xblk iblk2
  rw [View.read_apply]
  refine congrArg (V c (Pipeline.arrRef spec2 0)) ?_
  funext a
  apply Fin.ext
  match a with
  | ⟨0, _⟩ => show win2_0.index t (0 : Fin 3) * 1 + 1 * 0 = b.val; omega
  | ⟨1, _⟩ => show win2_0.index t (1 : Fin 3) * 4096 + 1 * s.val = s.val; omega
  | ⟨2, _⟩ => show win2_0.index t (2 : Fin 3) * 256 + 1 * d.val = d.val; omega

/-- Each weight matrix's block is the whole matrix. -/
theorem qblk_eq (c : Dev nD) (t : Fin cfg2.N) : qblk V c t = V c (Pipeline.arrRef spec2 1) := by
  obtain ⟨-, -, -, e0, e1, -⟩ := block_indices t
  funext j
  unfold qblk iblk2
  rw [View.read_apply]
  refine congrArg (V c (Pipeline.arrRef spec2 1)) ?_
  funext a
  apply Fin.ext
  match a with
  | ⟨0, _⟩ => show win2_1.index t (0 : Fin 2) * 256 + 1 * (j 0).val = (j 0).val; omega
  | ⟨1, _⟩ => show win2_1.index t (1 : Fin 2) * 64 + 1 * (j 1).val = (j 1).val; omega

theorem kblk_eq (c : Dev nD) (t : Fin cfg2.N) : kblk V c t = V c (Pipeline.arrRef spec2 2) := by
  obtain ⟨-, -, -, -, -, e0, e1, -⟩ := block_indices t
  funext j
  unfold kblk iblk2
  rw [View.read_apply]
  refine congrArg (V c (Pipeline.arrRef spec2 2)) ?_
  funext a
  apply Fin.ext
  match a with
  | ⟨0, _⟩ => show win2_2.index t (0 : Fin 2) * 256 + 1 * (j 0).val = (j 0).val; omega
  | ⟨1, _⟩ => show win2_2.index t (1 : Fin 2) * 64 + 1 * (j 1).val = (j 1).val; omega

theorem vblk_eq (c : Dev nD) (t : Fin cfg2.N) : vblk V c t = V c (Pipeline.arrRef spec2 3) := by
  obtain ⟨-, -, -, -, -, -, -, e0, e1, -⟩ := block_indices t
  funext j
  unfold vblk iblk2
  rw [View.read_apply]
  refine congrArg (V c (Pipeline.arrRef spec2 3)) ?_
  funext a
  apply Fin.ext
  match a with
  | ⟨0, _⟩ => show win2_3.index t (0 : Fin 2) * 256 + 1 * (j 0).val = (j 0).val; omega
  | ⟨1, _⟩ => show win2_3.index t (1 : Fin 2) * 64 + 1 * (j 1).val = (j 1).val; omega

theorem pblk_eq (c : Dev nD) (t : Fin cfg2.N) : pblk V c t = V c (Pipeline.arrRef spec2 4) := by
  obtain ⟨-, -, -, -, -, -, -, -, -, e0, e1, -⟩ := block_indices t
  funext j
  unfold pblk iblk2
  rw [View.read_apply]
  refine congrArg (V c (Pipeline.arrRef spec2 4)) ?_
  funext a
  apply Fin.ext
  match a with
  | ⟨0, _⟩ => show win2_4.index t (0 : Fin 2) * 64 + 1 * (j 0).val = (j 0).val; omega
  | ⟨1, _⟩ => show win2_4.index t (1 : Fin 2) * 256 + 1 * (j 1).val = (j 1).val; omega

/-- One point's stored block, entry by entry, is the layer of the whole stream at the point's batch: the layer
    reads only that batch, and the point's block is that batch. -/
theorem stored_apply (X : Cert.Lsa.Act) (xb : Vec Ideal S1x4096x256 .f32) (wq wk wv : Vec Ideal S256x64 .f32)
    (wp : Vec Ideal S64x256 .f32) (b : Fin 4) (hx : ∀ s d, xb (ix3 0 s d) = X (ix3 b s d))
    (y : S1x4096x256.Idx) (i : S4x4096x256.Idx)
    (h0 : (i 0).val = b.val) (h1 : (i 1).val = (y 1).val) (h2 : (i 2).val = (y 2).val) :
    k2_pay1 (F := Ideal) xb wq wk wv wp y = Cert.Lsa.LK X wq wk wv wp i := by
  obtain ⟨p, s, d, rfl⟩ : ∃ (p : Fin 1) (s : Fin 4096) (d : Fin 256), y = ix3 p s d := ⟨y 0, y 1, y 2, eq_ix3 y⟩
  obtain rfl : p = 0 := Fin.ext (by omega)
  obtain ⟨b', s', d', rfl⟩ : ∃ (b' : Fin 4) (s' : Fin 4096) (d' : Fin 256), i = ix3 b' s' d' := ⟨i 0, i 1, i 2, eq_ix3 i⟩
  obtain rfl : b' = b := Fin.ext h0
  obtain rfl : s' = s := Fin.ext h1
  obtain rfl : d' = d := Fin.ext h2
  rw [Cert.KernelIdeal.LsaPayload.pay2_apply, Cert.Lsa.LK_apply]
  exact Cert.Lsa.layerK_congr X xb wq wk wv wp b' 0 hx s' d'

/-- What point `t` writes back is block `t` of the layer applied to the whole stream. -/
theorem written_block (c : Dev nD) (t : Fin cfg2.N) :
    (dat2 (F := Ideal) V c).flushed 5 t = ((cfg2.win 5).blk t).view.read (Elt Ideal)
      (Cert.Lsa.LK (V c (Pipeline.arrRef spec2 0)) (V c (Pipeline.arrRef spec2 1)) (V c (Pipeline.arrRef spec2 2))
          (V c (Pipeline.arrRef spec2 3)) (V c (Pipeline.arrRef spec2 4))) := by
  show (cfg2.win 5).cut (grid2.coords t) ((dat2 V c).after 5 t) = _
  rw [after2_5]
  unfold out2_5
  rw [View.canon_unit_zero zeros3]
  simp only [View.ld_unit_zero (S := S1x4096x256) zeros3, View.ld_unit_zero (S := S256x64) zeros2, View.ld_unit_zero (S := S64x256) zeros2]
  obtain ⟨-, -, -, -, -, -, -, -, -, -, -, e0, e1, e2⟩ := block_indices t
  have hN : cfg2.N = 4 := N_2
  funext y
  rw [View.read_apply]
  show k2_pay1 (F := Ideal) (xblk V c t) (qblk V c t) (kblk V c t) (vblk V c t) (pblk V c t) ((cfg2.win 5).xinj (grid2.coords t) y) = _
  rw [qblk_eq, kblk_eq, vblk_eq, pblk_eq]
  refine stored_apply (V c (Pipeline.arrRef spec2 0)) (xblk V c t) _ _ _ _ ⟨t.val, by have := t.isLt; omega⟩
    (fun s d => xblk_apply V c t s d _ rfl) _ _ ?_ ?_ ?_
  · show win2_5.index t (0 : Fin 3) * 1 + 1 * (y 0).val = t.val
    have hy : (y 0).val < 1 := (y 0).isLt
    omega
  · show win2_5.index t (1 : Fin 3) * 4096 + 1 * (y 1).val = (y 1).val; omega
  · show win2_5.index t (2 : Fin 3) * 256 + 1 * (y 2).val = (y 2).val; omega

/-- An index of the output array is in point `t`'s block iff each coordinate is in the block's range on its axis. -/
theorem mem_block (t : Fin cfg2.N) (i : S4x4096x256.Idx) :
    i ∈ ((cfg2.win 5).blk t).view.set ↔ ∀ a : Fin 3, win2_5.index t a * S1x4096x256.size a ≤ (i a).val ∧ (i a).val < win2_5.index t a * S1x4096x256.size a + S1x4096x256.size a := by
  show i ∈ ((View.whole (Pipeline.arrRef spec2 5)).slice (win2_5.rect t)).set ↔ _
  rw [View.set_slice_whole, Rect.mem_set_unit]
  exact Iff.rfl

/-- Every index of the output array lies in the block of the point that is its batch. -/
theorem covered (i : S4x4096x256.Idx) :
    ∃ t : Fin cfg2.N, (cfg2.win 5).flush t = true ∧ i ∈ ((cfg2.win 5).blk t).view.set := by
  have hN : cfg2.N = 4 := N_2
  have hi0 : (i 0).val < 4 := (i 0).isLt
  have hi1 : (i 1).val < 4096 := (i 1).isLt
  have hi2 : (i 2).val < 256 := (i 2).isLt
  obtain ⟨t, ht⟩ : ∃ t : Fin cfg2.N, t.val = (i 0).val := ⟨⟨(i 0).val, by omega⟩, rfl⟩
  refine ⟨t, flush2_5 t, ?_⟩
  rw [mem_block]
  obtain ⟨-, -, -, -, -, -, -, -, -, -, -, e0, e1, e2⟩ := block_indices t
  intro a
  match a with
  | ⟨0, _⟩ => show win2_5.index t (0 : Fin 3) * 1 ≤ (i 0).val ∧ (i 0).val < win2_5.index t (0 : Fin 3) * 1 + 1; omega
  | ⟨1, _⟩ => show win2_5.index t (1 : Fin 3) * 4096 ≤ (i 1).val ∧ (i 1).val < win2_5.index t (1 : Fin 3) * 4096 + 4096; omega
  | ⟨2, _⟩ => show win2_5.index t (2 : Fin 3) * 256 ≤ (i 2).val ∧ (i 2).val < win2_5.index t (2 : Fin 3) * 256 + 256; omega

/-- The output array once every grid point has written its block back. -/
theorem value (c : Dev nD) :
    (dat2 (F := Ideal) V c).arrAt 5 cfg2.N
      = Cert.Lsa.LK (V c (Pipeline.arrRef spec2 0)) (V c (Pipeline.arrRef spec2 1)) (V c (Pipeline.arrRef spec2 2))
          (V c (Pipeline.arrRef spec2 3)) (V c (Pipeline.arrRef spec2 4)) :=
  (dat2 (F := Ideal) V c).arrAt_eq_of_cover 5 _ (fun t _ => written_block V c t) covered

end Cert.KernelIdeal.LsaRegion2

end
-- ==== Proof.KernelRegion3.lean ====
/-
  Launch 3 of the kernel as a map of whole arrays: whatever the five input arrays hold when the launch is entered,
  the output array after its four grid points (one per batch, each writing its own batch's block) is one layer
  applied to the stream, in the bracketing Q·(Kᵀ·V).
-/
import proofs.«111333_j71511205478734_1_alg».proof.Proof.Gen.KernelIdeal.Frame
import proofs.«111333_j71511205478734_1_alg».proof.Proof.KernelPayload

noncomputable section

namespace Cert.KernelIdeal.LsaRegion3

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-- Zero offsets on three axes, however spelt. -/
theorem zeros3 : (![0, 0, 0] : Fin 3 → Nat) = fun _ => 0 :=
  funext fun a => by match a with | ⟨0, _⟩ => rfl | ⟨1, _⟩ => rfl | ⟨2, _⟩ => rfl
/-- Zero offsets on two axes. -/
theorem zeros2 : (![0, 0] : Fin 2 → Nat) = fun _ => 0 :=
  funext fun a => by match a with | ⟨0, _⟩ => rfl | ⟨1, _⟩ => rfl

/-- The block index of each window at each grid point: the stream's and the output's block is the point's batch,
    a weight matrix's block is the whole matrix at every point. -/
theorem block_indices : ∀ t : Fin cfg3.N,
    win3_0.index t (0 : Fin 3) = t.val ∧ win3_0.index t (1 : Fin 3) = 0 ∧ win3_0.index t (2 : Fin 3) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 3) = t.val ∧ win3_5.index t (1 : Fin 3) = 0 ∧ win3_5.index t (2 : Fin 3) = 0 :=
  (by decide +kernel : ∀ t : Fin grid3.N, _)

/-- The stream's block at a point, under its literal type. -/
abbrev xblk (c : Dev nD) (t : Fin cfg3.N) : Vec Ideal S1x4096x256 .f32 := iblk3 V c 0 t
/-- The four weight matrices' blocks at a point. -/
abbrev qblk (c : Dev nD) (t : Fin cfg3.N) : Vec Ideal S256x64 .f32 := iblk3 V c 1 t
abbrev kblk (c : Dev nD) (t : Fin cfg3.N) : Vec Ideal S256x64 .f32 := iblk3 V c 2 t
abbrev vblk (c : Dev nD) (t : Fin cfg3.N) : Vec Ideal S256x64 .f32 := iblk3 V c 3 t
abbrev pblk (c : Dev nD) (t : Fin cfg3.N) : Vec Ideal S64x256 .f32 := iblk3 V c 4 t

/-- The stream's block at point `t` is batch `t` of the stream. -/
theorem xblk_apply (c : Dev nD) (t : Fin cfg3.N) (s : Fin 4096) (d : Fin 256) (b : Fin 4) (hb : b.val = t.val) :
    xblk V c t (ix3 0 s d) = (V c (Pipeline.arrRef spec3 0) : S4x4096x256.Idx → EReal) (ix3 b s d) := by
  obtain ⟨e0, e1, e2, -⟩ := block_indices t
  unfold xblk iblk3
  rw [View.read_apply]
  refine congrArg (V c (Pipeline.arrRef spec3 0)) ?_
  funext a
  apply Fin.ext
  match a with
  | ⟨0, _⟩ => show win3_0.index t (0 : Fin 3) * 1 + 1 * 0 = b.val; omega
  | ⟨1, _⟩ => show win3_0.index t (1 : Fin 3) * 4096 + 1 * s.val = s.val; omega
  | ⟨2, _⟩ => show win3_0.index t (2 : Fin 3) * 256 + 1 * d.val = d.val; omega

/-- Each weight matrix's block is the whole matrix. -/
theorem qblk_eq (c : Dev nD) (t : Fin cfg3.N) : qblk V c t = V c (Pipeline.arrRef spec3 1) := by
  obtain ⟨-, -, -, e0, e1, -⟩ := block_indices t
  funext j
  unfold qblk iblk3
  rw [View.read_apply]
  refine congrArg (V c (Pipeline.arrRef spec3 1)) ?_
  funext a
  apply Fin.ext
  match a with
  | ⟨0, _⟩ => show win3_1.index t (0 : Fin 2) * 256 + 1 * (j 0).val = (j 0).val; omega
  | ⟨1, _⟩ => show win3_1.index t (1 : Fin 2) * 64 + 1 * (j 1).val = (j 1).val; omega

theorem kblk_eq (c : Dev nD) (t : Fin cfg3.N) : kblk V c t = V c (Pipeline.arrRef spec3 2) := by
  obtain ⟨-, -, -, -, -, e0, e1, -⟩ := block_indices t
  funext j
  unfold kblk iblk3
  rw [View.read_apply]
  refine congrArg (V c (Pipeline.arrRef spec3 2)) ?_
  funext a
  apply Fin.ext
  match a with
  | ⟨0, _⟩ => show win3_2.index t (0 : Fin 2) * 256 + 1 * (j 0).val = (j 0).val; omega
  | ⟨1, _⟩ => show win3_2.index t (1 : Fin 2) * 64 + 1 * (j 1).val = (j 1).val; omega

theorem vblk_eq (c : Dev nD) (t : Fin cfg3.N) : vblk V c t = V c (Pipeline.arrRef spec3 3) := by
  obtain ⟨-, -, -, -, -, -, -, e0, e1, -⟩ := block_indices t
  funext j
  unfold vblk iblk3
  rw [View.read_apply]
  refine congrArg (V c (Pipeline.arrRef spec3 3)) ?_
  funext a
  apply Fin.ext
  match a with
  | ⟨0, _⟩ => show win3_3.index t (0 : Fin 2) * 256 + 1 * (j 0).val = (j 0).val; omega
  | ⟨1, _⟩ => show win3_3.index t (1 : Fin 2) * 64 + 1 * (j 1).val = (j 1).val; omega

theorem pblk_eq (c : Dev nD) (t : Fin cfg3.N) : pblk V c t = V c (Pipeline.arrRef spec3 4) := by
  obtain ⟨-, -, -, -, -, -, -, -, -, e0, e1, -⟩ := block_indices t
  funext j
  unfold pblk iblk3
  rw [View.read_apply]
  refine congrArg (V c (Pipeline.arrRef spec3 4)) ?_
  funext a
  apply Fin.ext
  match a with
  | ⟨0, _⟩ => show win3_4.index t (0 : Fin 2) * 64 + 1 * (j 0).val = (j 0).val; omega
  | ⟨1, _⟩ => show win3_4.index t (1 : Fin 2) * 256 + 1 * (j 1).val = (j 1).val; omega

/-- One point's stored block, entry by entry, is the layer of the whole stream at the point's batch: the layer
    reads only that batch, and the point's block is that batch. -/
theorem stored_apply (X : Cert.Lsa.Act) (xb : Vec Ideal S1x4096x256 .f32) (wq wk wv : Vec Ideal S256x64 .f32)
    (wp : Vec Ideal S64x256 .f32) (b : Fin 4) (hx : ∀ s d, xb (ix3 0 s d) = X (ix3 b s d))
    (y : S1x4096x256.Idx) (i : S4x4096x256.Idx)
    (h0 : (i 0).val = b.val) (h1 : (i 1).val = (y 1).val) (h2 : (i 2).val = (y 2).val) :
    k3_pay1 (F := Ideal) xb wq wk wv wp y = Cert.Lsa.LK X wq wk wv wp i := by
  obtain ⟨p, s, d, rfl⟩ : ∃ (p : Fin 1) (s : Fin 4096) (d : Fin 256), y = ix3 p s d := ⟨y 0, y 1, y 2, eq_ix3 y⟩
  obtain rfl : p = 0 := Fin.ext (by omega)
  obtain ⟨b', s', d', rfl⟩ : ∃ (b' : Fin 4) (s' : Fin 4096) (d' : Fin 256), i = ix3 b' s' d' := ⟨i 0, i 1, i 2, eq_ix3 i⟩
  obtain rfl : b' = b := Fin.ext h0
  obtain rfl : s' = s := Fin.ext h1
  obtain rfl : d' = d := Fin.ext h2
  rw [Cert.KernelIdeal.LsaPayload.pay3_apply, Cert.Lsa.LK_apply]
  exact Cert.Lsa.layerK_congr X xb wq wk wv wp b' 0 hx s' d'

/-- What point `t` writes back is block `t` of the layer applied to the whole stream. -/
theorem written_block (c : Dev nD) (t : Fin cfg3.N) :
    (dat3 (F := Ideal) V c).flushed 5 t = ((cfg3.win 5).blk t).view.read (Elt Ideal)
      (Cert.Lsa.LK (V c (Pipeline.arrRef spec3 0)) (V c (Pipeline.arrRef spec3 1)) (V c (Pipeline.arrRef spec3 2))
          (V c (Pipeline.arrRef spec3 3)) (V c (Pipeline.arrRef spec3 4))) := by
  show (cfg3.win 5).cut (grid3.coords t) ((dat3 V c).after 5 t) = _
  rw [after3_5]
  unfold out3_5
  rw [View.canon_unit_zero zeros3]
  simp only [View.ld_unit_zero (S := S1x4096x256) zeros3, View.ld_unit_zero (S := S256x64) zeros2, View.ld_unit_zero (S := S64x256) zeros2]
  obtain ⟨-, -, -, -, -, -, -, -, -, -, -, e0, e1, e2⟩ := block_indices t
  have hN : cfg3.N = 4 := N_3
  funext y
  rw [View.read_apply]
  show k3_pay1 (F := Ideal) (xblk V c t) (qblk V c t) (kblk V c t) (vblk V c t) (pblk V c t) ((cfg3.win 5).xinj (grid3.coords t) y) = _
  rw [qblk_eq, kblk_eq, vblk_eq, pblk_eq]
  refine stored_apply (V c (Pipeline.arrRef spec3 0)) (xblk V c t) _ _ _ _ ⟨t.val, by have := t.isLt; omega⟩
    (fun s d => xblk_apply V c t s d _ rfl) _ _ ?_ ?_ ?_
  · show win3_5.index t (0 : Fin 3) * 1 + 1 * (y 0).val = t.val
    have hy : (y 0).val < 1 := (y 0).isLt
    omega
  · show win3_5.index t (1 : Fin 3) * 4096 + 1 * (y 1).val = (y 1).val; omega
  · show win3_5.index t (2 : Fin 3) * 256 + 1 * (y 2).val = (y 2).val; omega

/-- An index of the output array is in point `t`'s block iff each coordinate is in the block's range on its axis. -/
theorem mem_block (t : Fin cfg3.N) (i : S4x4096x256.Idx) :
    i ∈ ((cfg3.win 5).blk t).view.set ↔ ∀ a : Fin 3, win3_5.index t a * S1x4096x256.size a ≤ (i a).val ∧ (i a).val < win3_5.index t a * S1x4096x256.size a + S1x4096x256.size a := by
  show i ∈ ((View.whole (Pipeline.arrRef spec3 5)).slice (win3_5.rect t)).set ↔ _
  rw [View.set_slice_whole, Rect.mem_set_unit]
  exact Iff.rfl

/-- Every index of the output array lies in the block of the point that is its batch. -/
theorem covered (i : S4x4096x256.Idx) :
    ∃ t : Fin cfg3.N, (cfg3.win 5).flush t = true ∧ i ∈ ((cfg3.win 5).blk t).view.set := by
  have hN : cfg3.N = 4 := N_3
  have hi0 : (i 0).val < 4 := (i 0).isLt
  have hi1 : (i 1).val < 4096 := (i 1).isLt
  have hi2 : (i 2).val < 256 := (i 2).isLt
  obtain ⟨t, ht⟩ : ∃ t : Fin cfg3.N, t.val = (i 0).val := ⟨⟨(i 0).val, by omega⟩, rfl⟩
  refine ⟨t, flush3_5 t, ?_⟩
  rw [mem_block]
  obtain ⟨-, -, -, -, -, -, -, -, -, -, -, e0, e1, e2⟩ := block_indices t
  intro a
  match a with
  | ⟨0, _⟩ => show win3_5.index t (0 : Fin 3) * 1 ≤ (i 0).val ∧ (i 0).val < win3_5.index t (0 : Fin 3) * 1 + 1; omega
  | ⟨1, _⟩ => show win3_5.index t (1 : Fin 3) * 4096 ≤ (i 1).val ∧ (i 1).val < win3_5.index t (1 : Fin 3) * 4096 + 4096; omega
  | ⟨2, _⟩ => show win3_5.index t (2 : Fin 3) * 256 ≤ (i 2).val ∧ (i 2).val < win3_5.index t (2 : Fin 3) * 256 + 256; omega

/-- The output array once every grid point has written its block back. -/
theorem value (c : Dev nD) :
    (dat3 (F := Ideal) V c).arrAt 5 cfg3.N
      = Cert.Lsa.LK (V c (Pipeline.arrRef spec3 0)) (V c (Pipeline.arrRef spec3 1)) (V c (Pipeline.arrRef spec3 2))
          (V c (Pipeline.arrRef spec3 3)) (V c (Pipeline.arrRef spec3 4)) :=
  (dat3 (F := Ideal) V c).arrAt_eq_of_cover 5 _ (fun t _ => written_block V c t) covered

end Cert.KernelIdeal.LsaRegion3

end
-- ==== Proof.LsaSlices.lean ====
/-
  Taking layer l's matrix out of a stack of four: the programs cut the one-matrix slab [l : l+1, :, :] out of the
  stack and reshape it to a matrix; entry (a, b) of the result is entry (l, a, b) of the stack.
-/
import proofs.«111333_j71511205478734_1_alg».proof.Proof.LsaSpec
import Idealize.ShloMosaic.Lib.Pipeline.Value

noncomputable section

namespace Cert.Lsa

open Idealize.ShloMosaic Idealize.ShloMosaic.ValueIdx

/-- The slab at offset `o = l` along the first axis, reshaped to a matrix, is member `l`. -/
theorem member_of_slice {n0 n1 n2 : Nat} (W : (⟨3, ![n0, n1, n2]⟩ : Shape).Idx → EReal) (l : Fin n0) (o : Nat) (ho : o = l.val)
    (h : (⟨3, ![n0, n1, n2]⟩ : Shape).Slices ![o, 0, 0] ⟨3, ![1, n1, n2]⟩)
    (h' : (⟨3, ![1, n1, n2]⟩ : Shape).ShapeCasts ⟨2, ![n1, n2]⟩) :
    shapeCast (⟨2, ![n1, n2]⟩ : Shape) (extractStridedSlice (⟨3, ![1, n1, n2]⟩ : Shape) ![o, 0, 0] W h) h' = member W l := by
  funext j
  obtain ⟨a, b, rfl⟩ : ∃ (a : Fin n1) (b : Fin n2), j = ix2 a b := ⟨j 0, j 1, eq_ix2 j⟩
  rw [member_apply]
  -- the matrix at (a, b) is the slab at (0, a, b): same row-major position
  refine (shapeCast_apply _ h' (ix2 a b) (ix3 (0 : Fin 1) a b) ?_).trans ?_
  · rw [Shape.rowMajor_val_three, Shape.rowMajor_val_two]
    show (0 * n1 + a.val) * n2 + b.val = a.val * n2 + b.val
    rw [Nat.zero_mul, Nat.zero_add]
  -- the slab at (0, a, b) is the stack at (o + 0, a, b)
  · refine extractStridedSlice_apply _ W h (ix3 (0 : Fin 1) a b) (ix3 l a b) fun c => ?_
    match c with
    | ⟨0, _⟩ => show l.val = o + 0; omega
    | ⟨1, _⟩ => show a.val = 0 + a.val; omega
    | ⟨2, _⟩ => show b.val = 0 + b.val; omega

end Cert.Lsa

end
-- ==== Proof.KernelChain.lean ====
/-
  The kernel program's last boundary contents at the result buffer, as a function of the launch memory: the four
  launches, each fed the previous launch's output as its stream and its own layer's slices of the four weight
  stacks, compose to the four-layer network in the bracketing Q·(Kᵀ·V). Between launches the host only cuts the next
  layer's weights out of the (unchanged) argument stacks.
-/
import proofs.«111333_j71511205478734_1_alg».proof.Proof.Gen.KernelIdeal.Frame
import proofs.«111333_j71511205478734_1_alg».proof.Proof.KernelRegion0
import proofs.«111333_j71511205478734_1_alg».proof.Proof.KernelRegion1
import proofs.«111333_j71511205478734_1_alg».proof.Proof.KernelRegion2
import proofs.«111333_j71511205478734_1_alg».proof.Proof.KernelRegion3
import proofs.«111333_j71511205478734_1_alg».proof.Proof.LsaSlices
import Idealize.ShloMosaic.Lib.StableHlo.Run

set_option maxRecDepth 16384

noncomputable section

namespace Cert.KernelIdeal.LsaChain

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

/-- A buffer that none of a stretch of slice-and-reshape operations writes holds after the stretch what it held before. -/
local macro "unwritten" ops:ident : tactic => `(tactic| (
  refine StableHlo.after_of_forall_not_mem _ _ (List.forall_iff_forall_mem.mp ?_)
  simp only [$ops:ident, List.Forall, StableHlo.unary_writes, StableHlo.reshape_writes, Finset.mem_singleton]
  repeat' apply And.intro
  all_goals exact StableHlo.devRef_ne_of_ne (by decide)))

/-- One layer at equal arguments. -/
private theorem LK_congr {x x' : Cert.Lsa.Act} {q q' k k' v v' : Cert.Lsa.WIn} {p p' : Cert.Lsa.WOut}
    (hx : x = x') (hq : q = q') (hk : k = k') (hv : v = v') (hp : p = p') :
    Cert.Lsa.LK x q k v p = Cert.Lsa.LK x' q' k' v' p' := by
  rw [hx, hq, hk, hv, hp]

/-! ## The four weight stacks are never written: at every boundary they hold the launch memory -/

private theorem arg1_W0 (c : Dev nD) : W0 m ρ c (Proc.devRef .tc main_arg1) = m ((c.tc : Thread nD τ).loc main_arg1) := rfl
private theorem arg1_W2 (c : Dev nD) : W2 m ρ c (Proc.devRef .tc main_arg1) = m ((c.tc : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := by unwritten hostOps0
    _ = m ((c.tc : Thread nD τ).loc main_arg1) := arg1_W0 m ρ c
private theorem arg1_W4 (c : Dev nD) : W4 m ρ c (Proc.devRef .tc main_arg1) = m ((c.tc : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := by unwritten hostOps1
    _ = m ((c.tc : Thread nD τ).loc main_arg1) := arg1_W2 m ρ c
private theorem arg1_W6 (c : Dev nD) : W6 m ρ c (Proc.devRef .tc main_arg1) = m ((c.tc : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := by unwritten hostOps2
    _ = m ((c.tc : Thread nD τ).loc main_arg1) := arg1_W4 m ρ c

private theorem arg2_W0 (c : Dev nD) : W0 m ρ c (Proc.devRef .tc main_arg2) = m ((c.tc : Thread nD τ).loc main_arg2) := rfl
private theorem arg2_W2 (c : Dev nD) : W2 m ρ c (Proc.devRef .tc main_arg2) = m ((c.tc : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := by unwritten hostOps0
    _ = m ((c.tc : Thread nD τ).loc main_arg2) := arg2_W0 m ρ c
private theorem arg2_W4 (c : Dev nD) : W4 m ρ c (Proc.devRef .tc main_arg2) = m ((c.tc : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := by unwritten hostOps1
    _ = m ((c.tc : Thread nD τ).loc main_arg2) := arg2_W2 m ρ c
private theorem arg2_W6 (c : Dev nD) : W6 m ρ c (Proc.devRef .tc main_arg2) = m ((c.tc : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := by unwritten hostOps2
    _ = m ((c.tc : Thread nD τ).loc main_arg2) := arg2_W4 m ρ c

private theorem arg3_W0 (c : Dev nD) : W0 m ρ c (Proc.devRef .tc main_arg3) = m ((c.tc : Thread nD τ).loc main_arg3) := rfl
private theorem arg3_W2 (c : Dev nD) : W2 m ρ c (Proc.devRef .tc main_arg3) = m ((c.tc : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := by unwritten hostOps0
    _ = m ((c.tc : Thread nD τ).loc main_arg3) := arg3_W0 m ρ c
private theorem arg3_W4 (c : Dev nD) : W4 m ρ c (Proc.devRef .tc main_arg3) = m ((c.tc : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := by unwritten hostOps1
    _ = m ((c.tc : Thread nD τ).loc main_arg3) := arg3_W2 m ρ c
private theorem arg3_W6 (c : Dev nD) : W6 m ρ c (Proc.devRef .tc main_arg3) = m ((c.tc : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := by unwritten hostOps2
    _ = m ((c.tc : Thread nD τ).loc main_arg3) := arg3_W4 m ρ c

private theorem arg4_W0 (c : Dev nD) : W0 m ρ c (Proc.devRef .tc main_arg4) = m ((c.tc : Thread nD τ).loc main_arg4) := rfl
private theorem arg4_W2 (c : Dev nD) : W2 m ρ c (Proc.devRef .tc main_arg4) = m ((c.tc : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := by unwritten hostOps0
    _ = m ((c.tc : Thread nD τ).loc main_arg4) := arg4_W0 m ρ c
private theorem arg4_W4 (c : Dev nD) : W4 m ρ c (Proc.devRef .tc main_arg4) = m ((c.tc : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := by unwritten hostOps1
    _ = m ((c.tc : Thread nD τ).loc main_arg4) := arg4_W2 m ρ c
private theorem arg4_W6 (c : Dev nD) : W6 m ρ c (Proc.devRef .tc main_arg4) = m ((c.tc : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := by unwritten hostOps2
    _ = m ((c.tc : Thread nD τ).loc main_arg4) := arg4_W4 m ρ c

/-! ## What each launch is entered with: its layer's matrices cut out of the stacks, and the stream so far -/

private theorem w1_0 (c : Dev nD) :
    (W1 m ρ c (Proc.devRef .tc main_v1) : S256x64.Idx → EReal) = Cert.Lsa.member (m ((c.tc : Thread nD τ).loc main_arg1)) 0 := by
  have e : (W1 m ρ c (Proc.devRef .tc main_v1) : S256x64.Idx → EReal)
      = shapeCast S256x64 (extractStridedSlice S1x256x64 ![0, 0, 0] (W0 m ρ c (Proc.devRef .tc main_arg1)) slices_S4x256x64_S1x256x64_0_0_0) shapeCasts_S1x256x64_S256x64 := by
    show StableHlo.after hostOps0 (W0 m ρ c) (Proc.devRef .tc main_v1) = _
    after_results; rfl
  rw [e, arg1_W0]
  exact Cert.Lsa.member_of_slice _ 0 0 rfl _ _
private theorem w2_0 (c : Dev nD) :
    (W1 m ρ c (Proc.devRef .tc main_v3) : S256x64.Idx → EReal) = Cert.Lsa.member (m ((c.tc : Thread nD τ).loc main_arg2)) 0 := by
  have e : (W1 m ρ c (Proc.devRef .tc main_v3) : S256x64.Idx → EReal)
      = shapeCast S256x64 (extractStridedSlice S1x256x64 ![0, 0, 0] (W0 m ρ c (Proc.devRef .tc main_arg2)) slices_S4x256x64_S1x256x64_0_0_0) shapeCasts_S1x256x64_S256x64 := by
    show StableHlo.after hostOps0 (W0 m ρ c) (Proc.devRef .tc main_v3) = _
    after_results; rfl
  rw [e, arg2_W0]
  exact Cert.Lsa.member_of_slice _ 0 0 rfl _ _
private theorem w3_0 (c : Dev nD) :
    (W1 m ρ c (Proc.devRef .tc main_v5) : S256x64.Idx → EReal) = Cert.Lsa.member (m ((c.tc : Thread nD τ).loc main_arg3)) 0 := by
  have e : (W1 m ρ c (Proc.devRef .tc main_v5) : S256x64.Idx → EReal)
      = shapeCast S256x64 (extractStridedSlice S1x256x64 ![0, 0, 0] (W0 m ρ c (Proc.devRef .tc main_arg3)) slices_S4x256x64_S1x256x64_0_0_0) shapeCasts_S1x256x64_S256x64 := by
    show StableHlo.after hostOps0 (W0 m ρ c) (Proc.devRef .tc main_v5) = _
    after_results; rfl
  rw [e, arg3_W0]
  exact Cert.Lsa.member_of_slice _ 0 0 rfl _ _
private theorem w4_0 (c : Dev nD) :
    (W1 m ρ c (Proc.devRef .tc main_v7) : S64x256.Idx → EReal) = Cert.Lsa.member (m ((c.tc : Thread nD τ).loc main_arg4)) 0 := by
  have e : (W1 m ρ c (Proc.devRef .tc main_v7) : S64x256.Idx → EReal)
      = shapeCast S64x256 (extractStridedSlice S1x64x256 ![0, 0, 0] (W0 m ρ c (Proc.devRef .tc main_arg4)) slices_S4x64x256_S1x64x256_0_0_0) shapeCasts_S1x64x256_S64x256 := by
    show StableHlo.after hostOps0 (W0 m ρ c) (Proc.devRef .tc main_v7) = _
    after_results; rfl
  rw [e, arg4_W0]
  exact Cert.Lsa.member_of_slice _ 0 0 rfl _ _

private theorem w1_1 (c : Dev nD) :
    (W3 m ρ c (Proc.devRef .tc main_v10) : S256x64.Idx → EReal) = Cert.Lsa.member (m ((c.tc : Thread nD τ).loc main_arg1)) 1 := by
  have e : (W3 m ρ c (Proc.devRef .tc main_v10) : S256x64.Idx → EReal)
      = shapeCast S256x64 (extractStridedSlice S1x256x64 ![1, 0, 0] (W2 m ρ c (Proc.devRef .tc main_arg1)) slices_S4x256x64_S1x256x64_1_0_0) shapeCasts_S1x256x64_S256x64 := by
    show StableHlo.after hostOps1 (W2 m ρ c) (Proc.devRef .tc main_v10) = _
    after_results; rfl
  rw [e, arg1_W2]
  exact Cert.Lsa.member_of_slice _ 1 1 rfl _ _
private theorem w2_1 (c : Dev nD) :
    (W3 m ρ c (Proc.devRef .tc main_v12) : S256x64.Idx → EReal) = Cert.Lsa.member (m ((c.tc : Thread nD τ).loc main_arg2)) 1 := by
  have e : (W3 m ρ c (Proc.devRef .tc main_v12) : S256x64.Idx → EReal)
      = shapeCast S256x64 (extractStridedSlice S1x256x64 ![1, 0, 0] (W2 m ρ c (Proc.devRef .tc main_arg2)) slices_S4x256x64_S1x256x64_1_0_0) shapeCasts_S1x256x64_S256x64 := by
    show StableHlo.after hostOps1 (W2 m ρ c) (Proc.devRef .tc main_v12) = _
    after_results; rfl
  rw [e, arg2_W2]
  exact Cert.Lsa.member_of_slice _ 1 1 rfl _ _
private theorem w3_1 (c : Dev nD) :
    (W3 m ρ c (Proc.devRef .tc main_v14) : S256x64.Idx → EReal) = Cert.Lsa.member (m ((c.tc : Thread nD τ).loc main_arg3)) 1 := by
  have e : (W3 m ρ c (Proc.devRef .tc main_v14) : S256x64.Idx → EReal)
      = shapeCast S256x64 (extractStridedSlice S1x256x64 ![1, 0, 0] (W2 m ρ c (Proc.devRef .tc main_arg3)) slices_S4x256x64_S1x256x64_1_0_0) shapeCasts_S1x256x64_S256x64 := by
    show StableHlo.after hostOps1 (W2 m ρ c) (Proc.devRef .tc main_v14) = _
    after_results; rfl
  rw [e, arg3_W2]
  exact Cert.Lsa.member_of_slice _ 1 1 rfl _ _
private theorem w4_1 (c : Dev nD) :
    (W3 m ρ c (Proc.devRef .tc main_v16) : S64x256.Idx → EReal) = Cert.Lsa.member (m ((c.tc : Thread nD τ).loc main_arg4)) 1 := by
  have e : (W3 m ρ c (Proc.devRef .tc main_v16) : S64x256.Idx → EReal)
      = shapeCast S64x256 (extractStridedSlice S1x64x256 ![1, 0, 0] (W2 m ρ c (Proc.devRef .tc main_arg4)) slices_S4x64x256_S1x64x256_1_0_0) shapeCasts_S1x64x256_S64x256 := by
    show StableHlo.after hostOps1 (W2 m ρ c) (Proc.devRef .tc main_v16) = _
    after_results; rfl
  rw [e, arg4_W2]
  exact Cert.Lsa.member_of_slice _ 1 1 rfl _ _

private theorem w1_2 (c : Dev nD) :
    (W5 m ρ c (Proc.devRef .tc main_v19) : S256x64.Idx → EReal) = Cert.Lsa.member (m ((c.tc : Thread nD τ).loc main_arg1)) 2 := by
  have e : (W5 m ρ c (Proc.devRef .tc main_v19) : S256x64.Idx → EReal)
      = shapeCast S256x64 (extractStridedSlice S1x256x64 ![2, 0, 0] (W4 m ρ c (Proc.devRef .tc main_arg1)) slices_S4x256x64_S1x256x64_2_0_0) shapeCasts_S1x256x64_S256x64 := by
    show StableHlo.after hostOps2 (W4 m ρ c) (Proc.devRef .tc main_v19) = _
    after_results; rfl
  rw [e, arg1_W4]
  exact Cert.Lsa.member_of_slice _ 2 2 rfl _ _
private theorem w2_2 (c : Dev nD) :
    (W5 m ρ c (Proc.devRef .tc main_v21) : S256x64.Idx → EReal) = Cert.Lsa.member (m ((c.tc : Thread nD τ).loc main_arg2)) 2 := by
  have e : (W5 m ρ c (Proc.devRef .tc main_v21) : S256x64.Idx → EReal)
      = shapeCast S256x64 (extractStridedSlice S1x256x64 ![2, 0, 0] (W4 m ρ c (Proc.devRef .tc main_arg2)) slices_S4x256x64_S1x256x64_2_0_0) shapeCasts_S1x256x64_S256x64 := by
    show StableHlo.after hostOps2 (W4 m ρ c) (Proc.devRef .tc main_v21) = _
    after_results; rfl
  rw [e, arg2_W4]
  exact Cert.Lsa.member_of_slice _ 2 2 rfl _ _
private theorem w3_2 (c : Dev nD) :
    (W5 m ρ c (Proc.devRef .tc main_v23) : S256x64.Idx → EReal) = Cert.Lsa.member (m ((c.tc : Thread nD τ).loc main_arg3)) 2 := by
  have e : (W5 m ρ c (Proc.devRef .tc main_v23) : S256x64.Idx → EReal)
      = shapeCast S256x64 (extractStridedSlice S1x256x64 ![2, 0, 0] (W4 m ρ c (Proc.devRef .tc main_arg3)) slices_S4x256x64_S1x256x64_2_0_0) shapeCasts_S1x256x64_S256x64 := by
    show StableHlo.after hostOps2 (W4 m ρ c) (Proc.devRef .tc main_v23) = _
    after_results; rfl
  rw [e, arg3_W4]
  exact Cert.Lsa.member_of_slice _ 2 2 rfl _ _
private theorem w4_2 (c : Dev nD) :
    (W5 m ρ c (Proc.devRef .tc main_v25) : S64x256.Idx → EReal) = Cert.Lsa.member (m ((c.tc : Thread nD τ).loc main_arg4)) 2 := by
  have e : (W5 m ρ c (Proc.devRef .tc main_v25) : S64x256.Idx → EReal)
      = shapeCast S64x256 (extractStridedSlice S1x64x256 ![2, 0, 0] (W4 m ρ c (Proc.devRef .tc main_arg4)) slices_S4x64x256_S1x64x256_2_0_0) shapeCasts_S1x64x256_S64x256 := by
    show StableHlo.after hostOps2 (W4 m ρ c) (Proc.devRef .tc main_v25) = _
    after_results; rfl
  rw [e, arg4_W4]
  exact Cert.Lsa.member_of_slice _ 2 2 rfl _ _

private theorem w1_3 (c : Dev nD) :
    (W7 m ρ c (Proc.devRef .tc main_v28) : S256x64.Idx → EReal) = Cert.Lsa.member (m ((c.tc : Thread nD τ).loc main_arg1)) 3 := by
  have e : (W7 m ρ c (Proc.devRef .tc main_v28) : S256x64.Idx → EReal)
      = shapeCast S256x64 (extractStridedSlice S1x256x64 ![3, 0, 0] (W6 m ρ c (Proc.devRef .tc main_arg1)) slices_S4x256x64_S1x256x64_3_0_0) shapeCasts_S1x256x64_S256x64 := by
    show StableHlo.after hostOps3 (W6 m ρ c) (Proc.devRef .tc main_v28) = _
    after_results; rfl
  rw [e, arg1_W6]
  exact Cert.Lsa.member_of_slice _ 3 3 rfl _ _
private theorem w2_3 (c : Dev nD) :
    (W7 m ρ c (Proc.devRef .tc main_v30) : S256x64.Idx → EReal) = Cert.Lsa.member (m ((c.tc : Thread nD τ).loc main_arg2)) 3 := by
  have e : (W7 m ρ c (Proc.devRef .tc main_v30) : S256x64.Idx → EReal)
      = shapeCast S256x64 (extractStridedSlice S1x256x64 ![3, 0, 0] (W6 m ρ c (Proc.devRef .tc main_arg2)) slices_S4x256x64_S1x256x64_3_0_0) shapeCasts_S1x256x64_S256x64 := by
    show StableHlo.after hostOps3 (W6 m ρ c) (Proc.devRef .tc main_v30) = _
    after_results; rfl
  rw [e, arg2_W6]
  exact Cert.Lsa.member_of_slice _ 3 3 rfl _ _
private theorem w3_3 (c : Dev nD) :
    (W7 m ρ c (Proc.devRef .tc main_v32) : S256x64.Idx → EReal) = Cert.Lsa.member (m ((c.tc : Thread nD τ).loc main_arg3)) 3 := by
  have e : (W7 m ρ c (Proc.devRef .tc main_v32) : S256x64.Idx → EReal)
      = shapeCast S256x64 (extractStridedSlice S1x256x64 ![3, 0, 0] (W6 m ρ c (Proc.devRef .tc main_arg3)) slices_S4x256x64_S1x256x64_3_0_0) shapeCasts_S1x256x64_S256x64 := by
    show StableHlo.after hostOps3 (W6 m ρ c) (Proc.devRef .tc main_v32) = _
    after_results; rfl
  rw [e, arg3_W6]
  exact Cert.Lsa.member_of_slice _ 3 3 rfl _ _
private theorem w4_3 (c : Dev nD) :
    (W7 m ρ c (Proc.devRef .tc main_v34) : S64x256.Idx → EReal) = Cert.Lsa.member (m ((c.tc : Thread nD τ).loc main_arg4)) 3 := by
  have e : (W7 m ρ c (Proc.devRef .tc main_v34) : S64x256.Idx → EReal)
      = shapeCast S64x256 (extractStridedSlice S1x64x256 ![3, 0, 0] (W6 m ρ c (Proc.devRef .tc main_arg4)) slices_S4x64x256_S1x64x256_3_0_0) shapeCasts_S1x64x256_S64x256 := by
    show StableHlo.after hostOps3 (W6 m ρ c) (Proc.devRef .tc main_v34) = _
    after_results; rfl
  rw [e, arg4_W6]
  exact Cert.Lsa.member_of_slice _ 3 3 rfl _ _

/-! ## The chain: each launch's output array is its layer applied to the previous launch's output -/

/-- The stream entering launch 0 is the first argument as launched. -/
private theorem stream0 (c : Dev nD) : W1 m ρ c (Proc.devRef .tc main_arg0) = m ((c.tc : Thread nD τ).loc main_arg0) :=
  calc W1 m ρ c (Proc.devRef .tc main_arg0)
    _ = W0 m ρ c (Proc.devRef .tc main_arg0) := by unwritten hostOps0
    _ = m ((c.tc : Thread nD τ).loc main_arg0) := rfl

/-- Launch 0's output array at its exit: layer 0 applied to the stream it was entered with. -/
private theorem out0 (c : Dev nD) : W2 m ρ c (Proc.devRef .tc main_v8) = Cert.Lsa.stepK (m ((c.tc : Thread nD τ).loc main_arg1)) (m ((c.tc : Thread nD τ).loc main_arg2)) (m ((c.tc : Thread nD τ).loc main_arg3)) (m ((c.tc : Thread nD τ).loc main_arg4)) 0 (m ((c.tc : Thread nD τ).loc main_arg0)) :=
  (W2_arr m ρ c 5).trans ((LsaRegion0.value (V1 m ρ) c).trans
    (LK_congr (stream0 m ρ c) (w1_0 m ρ c) (w2_0 m ρ c) (w3_0 m ρ c) (w4_0 m ρ c)))

/-- The stream entering launch 1 is launch 0's output: the host stretch between them writes only the next layer's matrices. -/
private theorem stream1 (c : Dev nD) : W3 m ρ c (Proc.devRef .tc main_v8) = Cert.Lsa.stepK (m ((c.tc : Thread nD τ).loc main_arg1)) (m ((c.tc : Thread nD τ).loc main_arg2)) (m ((c.tc : Thread nD τ).loc main_arg3)) (m ((c.tc : Thread nD τ).loc main_arg4)) 0 (m ((c.tc : Thread nD τ).loc main_arg0)) :=
  calc W3 m ρ c (Proc.devRef .tc main_v8)
    _ = W2 m ρ c (Proc.devRef .tc main_v8) := by unwritten hostOps1
    _ = _ := out0 m ρ c

/-- Launch 1's output array at its exit: layer 1 applied to the stream it was entered with. -/
private theorem out1 (c : Dev nD) : W4 m ρ c (Proc.devRef .tc main_v17) = Cert.Lsa.stepK (m ((c.tc : Thread nD τ).loc main_arg1)) (m ((c.tc : Thread nD τ).loc main_arg2)) (m ((c.tc : Thread nD τ).loc main_arg3)) (m ((c.tc : Thread nD τ).loc main_arg4)) 1 (Cert.Lsa.stepK (m ((c.tc : Thread nD τ).loc main_arg1)) (m ((c.tc : Thread nD τ).loc main_arg2)) (m ((c.tc : Thread nD τ).loc main_arg3)) (m ((c.tc : Thread nD τ).loc main_arg4)) 0 (m ((c.tc : Thread nD τ).loc main_arg0))) :=
  (W4_arr m ρ c 5).trans ((LsaRegion1.value (V3 m ρ) c).trans
    (LK_congr (stream1 m ρ c) (w1_1 m ρ c) (w2_1 m ρ c) (w3_1 m ρ c) (w4_1 m ρ c)))

/-- The stream entering launch 2 is launch 1's output: the host stretch between them writes only the next layer's matrices. -/
private theorem stream2 (c : Dev nD) : W5 m ρ c (Proc.devRef .tc main_v17) = Cert.Lsa.stepK (m ((c.tc : Thread nD τ).loc main_arg1)) (m ((c.tc : Thread nD τ).loc main_arg2)) (m ((c.tc : Thread nD τ).loc main_arg3)) (m ((c.tc : Thread nD τ).loc main_arg4)) 1 (Cert.Lsa.stepK (m ((c.tc : Thread nD τ).loc main_arg1)) (m ((c.tc : Thread nD τ).loc main_arg2)) (m ((c.tc : Thread nD τ).loc main_arg3)) (m ((c.tc : Thread nD τ).loc main_arg4)) 0 (m ((c.tc : Thread nD τ).loc main_arg0))) :=
  calc W5 m ρ c (Proc.devRef .tc main_v17)
    _ = W4 m ρ c (Proc.devRef .tc main_v17) := by unwritten hostOps2
    _ = _ := out1 m ρ c

/-- Launch 2's output array at its exit: layer 2 applied to the stream it was entered with. -/
private theorem out2 (c : Dev nD) : W6 m ρ c (Proc.devRef .tc main_v26) = Cert.Lsa.stepK (m ((c.tc : Thread nD τ).loc main_arg1)) (m ((c.tc : Thread nD τ).loc main_arg2)) (m ((c.tc : Thread nD τ).loc main_arg3)) (m ((c.tc : Thread nD τ).loc main_arg4)) 2 (Cert.Lsa.stepK (m ((c.tc : Thread nD τ).loc main_arg1)) (m ((c.tc : Thread nD τ).loc main_arg2)) (m ((c.tc : Thread nD τ).loc main_arg3)) (m ((c.tc : Thread nD τ).loc main_arg4)) 1 (Cert.Lsa.stepK (m ((c.tc : Thread nD τ).loc main_arg1)) (m ((c.tc : Thread nD τ).loc main_arg2)) (m ((c.tc : Thread nD τ).loc main_arg3)) (m ((c.tc : Thread nD τ).loc main_arg4)) 0 (m ((c.tc : Thread nD τ).loc main_arg0)))) :=
  (W6_arr m ρ c 5).trans ((LsaRegion2.value (V5 m ρ) c).trans
    (LK_congr (stream2 m ρ c) (w1_2 m ρ c) (w2_2 m ρ c) (w3_2 m ρ c) (w4_2 m ρ c)))

/-- The stream entering launch 3 is launch 2's output: the host stretch between them writes only the next layer's matrices. -/
private theorem stream3 (c : Dev nD) : W7 m ρ c (Proc.devRef .tc main_v26) = Cert.Lsa.stepK (m ((c.tc : Thread nD τ).loc main_arg1)) (m ((c.tc : Thread nD τ).loc main_arg2)) (m ((c.tc : Thread nD τ).loc main_arg3)) (m ((c.tc : Thread nD τ).loc main_arg4)) 2 (Cert.Lsa.stepK (m ((c.tc : Thread nD τ).loc main_arg1)) (m ((c.tc : Thread nD τ).loc main_arg2)) (m ((c.tc : Thread nD τ).loc main_arg3)) (m ((c.tc : Thread nD τ).loc main_arg4)) 1 (Cert.Lsa.stepK (m ((c.tc : Thread nD τ).loc main_arg1)) (m ((c.tc : Thread nD τ).loc main_arg2)) (m ((c.tc : Thread nD τ).loc main_arg3)) (m ((c.tc : Thread nD τ).loc main_arg4)) 0 (m ((c.tc : Thread nD τ).loc main_arg0)))) :=
  calc W7 m ρ c (Proc.devRef .tc main_v26)
    _ = W6 m ρ c (Proc.devRef .tc main_v26) := by unwritten hostOps3
    _ = _ := out2 m ρ c

/-- Launch 3's output array at its exit: layer 3 applied to the stream it was entered with. -/
private theorem out3 (c : Dev nD) : W8 m ρ c (Proc.devRef .tc main_v35) = Cert.Lsa.stepK (m ((c.tc : Thread nD τ).loc main_arg1)) (m ((c.tc : Thread nD τ).loc main_arg2)) (m ((c.tc : Thread nD τ).loc main_arg3)) (m ((c.tc : Thread nD τ).loc main_arg4)) 3 (Cert.Lsa.stepK (m ((c.tc : Thread nD τ).loc main_arg1)) (m ((c.tc : Thread nD τ).loc main_arg2)) (m ((c.tc : Thread nD τ).loc main_arg3)) (m ((c.tc : Thread nD τ).loc main_arg4)) 2 (Cert.Lsa.stepK (m ((c.tc : Thread nD τ).loc main_arg1)) (m ((c.tc : Thread nD τ).loc main_arg2)) (m ((c.tc : Thread nD τ).loc main_arg3)) (m ((c.tc : Thread nD τ).loc main_arg4)) 1 (Cert.Lsa.stepK (m ((c.tc : Thread nD τ).loc main_arg1)) (m ((c.tc : Thread nD τ).loc main_arg2)) (m ((c.tc : Thread nD τ).loc main_arg3)) (m ((c.tc : Thread nD τ).loc main_arg4)) 0 (m ((c.tc : Thread nD τ).loc main_arg0))))) :=
  (W8_arr m ρ c 5).trans ((LsaRegion3.value (V7 m ρ) c).trans
    (LK_congr (stream3 m ρ c) (w1_3 m ρ c) (w2_3 m ρ c) (w3_3 m ρ c) (w4_3 m ρ c)))

/-- The result buffer at the last boundary. -/
theorem W8_result (c : Dev nD) :
    W8 m ρ c (Proc.devRef .tc main_v35)
      = Cert.Lsa.netK (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  exact out3 m ρ c

end Cert.KernelIdeal.LsaChain

end
-- ==== Proof.RefDots.lean ====
/-
  The four host matrix products of one reference layer, read at one entry of the result, at the exact
  (extended-real) values: each is the plain sum over the contracted coordinate.
-/
import proofs.«111333_j71511205478734_1_alg».proof.Proof.Gen.ReferenceIdeal
import Idealize.ShloMosaic.Lib.ValueIdx
import Idealize.ShloMosaic.Lib.StackMember
import Idealize.ShloMosaic.PureOps.Ideal.Laws

noncomputable section

open scoped BigOperators

namespace Cert.ReferenceIdeal.LsaDots

open Cert.ReferenceIdeal Idealize.ShloMosaic Idealize.ShloMosaic.ValueIdx

/-- A rank-3 array times a matrix, the array's last axis against the matrix's first ("abk,kn->abn"), read at an
    index: the sum over the contracted coordinate. -/
private theorem dotGeneral_lastFirst_apply {G m k n : Nat} {φ₁ φ₂ : FTy}
    (w : DotDims.WF ⟨3, ![G, m, k]⟩ ⟨2, ![k, n]⟩ ⟨3, ![G, m, n]⟩ [2] [0] [0, 1] [1] [] [])
    (prec : Option ContractPrecision) (A : FVec Ideal ⟨3, ![G, m, k]⟩ φ₁) (B : FVec Ideal ⟨2, ![k, n]⟩ φ₂)
    (g : Fin G) (a : Fin m) (b : Fin n) :
    Host.dotGeneral (⟨[2], [0], [0, 1], [1], [], [], w⟩ : DotDims _ _ _) prec A B (ix3 g a b)
      = ∑ c : Fin k, A (ix3 g a c) * B (ix2 c b) := by
  show FloatOps.dotGeneral _ prec _ A B (ix3 g a b) = _
  rw [Ideal.dotGeneral_apply,
    ← Equiv.sum_comp (contrEquiv1 (⟨[2], [0], [0, 1], [1], [], [], w⟩ : DotDims _ _ _) k rfl rfl).symm]
  refine Finset.sum_congr rfl fun c _ => ?_
  have c3 := contrEquiv1_symm_val
    (⟨[2], [0], [0, 1], [1], [], [], w⟩ : DotDims ⟨3, ![G, m, k]⟩ ⟨2, ![k, n]⟩ ⟨3, ![G, m, n]⟩) k rfl rfl c
  have l3 : (⟨[2], [0], [0, 1], [1], [], [], w⟩ : DotDims ⟨3, ![G, m, k]⟩ ⟨2, ![k, n]⟩ ⟨3, ![G, m, n]⟩).lhsIdx (ix3 g a b)
      ((contrEquiv1 _ k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [0], [0, 1], [1], [], [], w⟩ : DotDims ⟨3, ![G, m, k]⟩ ⟨2, ![k, n]⟩ ⟨3, ![G, m, n]⟩).rhsIdx (ix3 g a b)
      ((contrEquiv1 _ k rfl rfl).symm c) = ix2 c b := by
    funext ax; apply Fin.ext
    match ax with
    | ⟨0, _⟩ => simp [DotDims.rhsIdx]; exact c3
    | ⟨1, _⟩ => simp [DotDims.rhsIdx]; rfl
  rw [l3, r3]

/-- Two stacks of matrices multiplied member by member, both contracted on their last axis ("gak,gbk->gab"), read at
    an index: the sum over the contracted coordinate. -/
private theorem dotGeneral_stackTransposed_apply {G m k n : Nat} {φ₁ φ₂ : FTy}
    (w : DotDims.WF ⟨3, ![G, m, k]⟩ ⟨3, ![G, n, k]⟩ ⟨3, ![G, m, n]⟩ [2] [2] [1] [1] [0] [0])
    (prec : Option ContractPrecision) (A : FVec Ideal ⟨3, ![G, m, k]⟩ φ₁) (B : FVec Ideal ⟨3, ![G, n, k]⟩ φ₂)
    (g : Fin G) (a : Fin m) (b : Fin n) :
    Host.dotGeneral (⟨[2], [2], [1], [1], [0], [0], w⟩ : DotDims _ _ _) prec A B (ix3 g a b)
      = ∑ c : Fin k, A (ix3 g a c) * B (ix3 g b c) := by
  show FloatOps.dotGeneral _ prec _ A B (ix3 g a b) = _
  rw [Ideal.dotGeneral_apply,
    ← Equiv.sum_comp (contrEquiv1 (⟨[2], [2], [1], [1], [0], [0], w⟩ : DotDims _ _ _) k rfl rfl).symm]
  refine Finset.sum_congr rfl fun c _ => ?_
  have c3 := contrEquiv1_symm_val
    (⟨[2], [2], [1], [1], [0], [0], w⟩ : DotDims ⟨3, ![G, m, k]⟩ ⟨3, ![G, n, k]⟩ ⟨3, ![G, m, n]⟩) k rfl rfl c
  have l3 : (⟨[2], [2], [1], [1], [0], [0], w⟩ : DotDims ⟨3, ![G, m, k]⟩ ⟨3, ![G, n, k]⟩ ⟨3, ![G, m, n]⟩).lhsIdx (ix3 g a b)
      ((contrEquiv1 _ k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [2], [1], [1], [0], [0], w⟩ : DotDims ⟨3, ![G, m, k]⟩ ⟨3, ![G, n, k]⟩ ⟨3, ![G, m, n]⟩).rhsIdx (ix3 g a b)
      ((contrEquiv1 _ k rfl rfl).symm c) = ix3 g b c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c3
  rw [l3, r3]

/-- "bsd,dk->bsk": a projection of the stream. -/
theorem dg_xw (A : FVec Ideal S4x4096x256 .f32) (B : FVec Ideal S256x64 .f32) (b : Fin 4) (s : Fin 4096) (k : Fin 64) :
    Host.dotGeneral dot_S4x4096x256_S256x64_S4x4096x64_2_0_01_1_n_n none A B (ix3 b s k)
      = ∑ d : Fin 256, A (ix3 b s d) * B (ix2 d k) :=
  dotGeneral_lastFirst_apply _ none A B b s k

/-- "bsk,btk->bst": the scores, batch by batch, both operands contracted on their last axis. -/
theorem dg_scores (A B : FVec Ideal S4x4096x64 .f32) (b : Fin 4) (s t : Fin 4096) :
    Host.dotGeneral dot_S4x4096x64_S4x4096x64_S4x4096x4096_2_2_1_1_0_0 none A B (ix3 b s t)
      = ∑ k : Fin 64, A (ix3 b s k) * B (ix3 b t k) :=
  dotGeneral_stackTransposed_apply _ none A B b s t

/-- "bst,btv->bsv": scores times values, batch by batch. -/
theorem dg_ctx (A : FVec Ideal S4x4096x4096 .f32) (B : FVec Ideal S4x4096x64 .f32) (b : Fin 4) (s : Fin 4096) (v : Fin 64) :
    Host.dotGeneral dot_S4x4096x4096_S4x4096x64_S4x4096x64_2_1_1_2_0_0 none A B (ix3 b s v)
      = ∑ t : Fin 4096, A (ix3 b s t) * B (ix3 b t v) :=
  StackMember.dotGeneral_stack_apply _ none A B b s v

/-- "bsv,vd->bsd": the output projection. -/
theorem dg_proj (A : FVec Ideal S4x4096x64 .f32) (B : FVec Ideal S64x256 .f32) (b : Fin 4) (s : Fin 4096) (d : Fin 256) :
    Host.dotGeneral dot_S4x4096x64_S64x256_S4x4096x256_2_0_01_1_n_n none A B (ix3 b s d)
      = ∑ v : Fin 64, A (ix3 b s v) * B (ix2 v d) :=
  dotGeneral_lastFirst_apply _ none A B b s d

end Cert.ReferenceIdeal.LsaDots

end
-- ==== Proof.RefLayer.lean ====
/-
  One layer of the reference as the program writes it — three projections, the scores, scores times values, the
  output projection, the residual sum — is the layer function in the bracketing (Q·Kᵀ)·V.
-/
import proofs.«111333_j71511205478734_1_alg».proof.Proof.RefDots
import proofs.«111333_j71511205478734_1_alg».proof.Proof.LsaSpec

noncomputable section

open scoped BigOperators

namespace Cert.ReferenceIdeal.LsaLayer

open Cert.ReferenceIdeal Idealize.ShloMosaic Idealize.ShloMosaic.ValueIdx

/-- The seven host operations of one layer, composed. -/
def refLayer (x : FVec Ideal S4x4096x256 .f32) (wq wk wv : FVec Ideal S256x64 .f32) (wp : FVec Ideal S64x256 .f32) :
    FVec Ideal S4x4096x256 .f32 :=
  addf x (Host.dotGeneral dot_S4x4096x64_S64x256_S4x4096x256_2_0_01_1_n_n none
    (Host.dotGeneral dot_S4x4096x4096_S4x4096x64_S4x4096x64_2_1_1_2_0_0 none
      (Host.dotGeneral dot_S4x4096x64_S4x4096x64_S4x4096x4096_2_2_1_1_0_0 none
        (Host.dotGeneral dot_S4x4096x256_S256x64_S4x4096x64_2_0_01_1_n_n none x wq)
        (Host.dotGeneral dot_S4x4096x256_S256x64_S4x4096x64_2_0_01_1_n_n none x wk))
      (Host.dotGeneral dot_S4x4096x256_S256x64_S4x4096x64_2_0_01_1_n_n none x wv))
    wp)

/-- Entry by entry it is `layerR`. -/
theorem refLayer_eq (x : FVec Ideal S4x4096x256 .f32) (wq wk wv : FVec Ideal S256x64 .f32) (wp : FVec Ideal S64x256 .f32) :
    refLayer x wq wk wv wp = Cert.Lsa.LR x wq wk wv wp := by
  funext j
  obtain ⟨b, s, d, rfl⟩ : ∃ b s d, j = ix3 b s d := ⟨j 0, j 1, j 2, eq_ix3 j⟩
  rw [Cert.Lsa.LR_apply]
  unfold refLayer Cert.Lsa.layerR
  rw [addf_apply, LsaDots.dg_proj]
  refine congrArg (x (ix3 b s d) + ·) (Finset.sum_congr rfl fun v _ => ?_)
  rw [LsaDots.dg_ctx]
  refine congrArg (· * wp (ix2 v d)) (Finset.sum_congr rfl fun t _ => ?_)
  rw [LsaDots.dg_scores, LsaDots.dg_xw]
  refine congrArg (· * Cert.Lsa.proj x wv b t v) (Finset.sum_congr rfl fun k _ => ?_)
  rw [LsaDots.dg_xw, LsaDots.dg_xw]
  rfl

end Cert.ReferenceIdeal.LsaLayer

end
-- ==== Proof.RefValue.lean ====
/-
  The reference's run: every fair execution of its sixty host operations ends with the result buffer holding
  the four layers, each in the bracketing (Q·Kᵀ)·V, applied to the launch contents of the arguments, and with the
  arguments unchanged. The generated run names the result as the operations' composed term; that term is four
  nested copies of one layer's seven operations over the layer's slices of the weight stacks.
-/
import proofs.«111333_j71511205478734_1_alg».proof.Proof.Gen.ReferenceIdeal.Run
import proofs.«111333_j71511205478734_1_alg».proof.Proof.RefLayer
import proofs.«111333_j71511205478734_1_alg».proof.Proof.LsaSlices

noncomputable section

namespace Cert.ReferenceIdeal.LsaValue

open Cert.ReferenceIdeal Cert.ReferenceIdeal.Gen Idealize.ShloMosaic Idealize.ShloMosaic.TcCoe Idealize.SL.Sem
open Idealize.ShloMosaic.StableHlo Cert.ReferenceIdeal.Value Cert.ReferenceIdeal.LsaLayer

/-- One layer of the program over the slabs cut at offset `o = l` of the four weight stacks is layer `l` of the
    stack, in the bracketing (Q·Kᵀ)·V. -/
private theorem layer_eq (x : FVec Ideal S4x4096x256 .f32) (Wq Wk Wv : FVec Ideal S4x256x64 .f32)
    (Wp : FVec Ideal S4x64x256 .f32) (l : Fin 4) (o : Nat) (ho : o = l.val)
    (hi : S4x256x64.Slices ![o, 0, 0] S1x256x64) (hp : S4x64x256.Slices ![o, 0, 0] S1x64x256) :
    refLayer x
      (shapeCast _ (extractStridedSlice S1x256x64 ![o, 0, 0] Wq hi) shapeCasts_S1x256x64_S256x64)
      (shapeCast _ (extractStridedSlice S1x256x64 ![o, 0, 0] Wk hi) shapeCasts_S1x256x64_S256x64)
      (shapeCast _ (extractStridedSlice S1x256x64 ![o, 0, 0] Wv hi) shapeCasts_S1x256x64_S256x64)
      (shapeCast _ (extractStridedSlice S1x64x256 ![o, 0, 0] Wp hp) shapeCasts_S1x64x256_S64x256)
      = Cert.Lsa.stepR Wq Wk Wv Wp l x := by
  rw [refLayer_eq]
  have eq := Cert.Lsa.member_of_slice (n0 := 4) (n1 := 256) (n2 := 64) Wq l o ho hi shapeCasts_S1x256x64_S256x64
  have ek := Cert.Lsa.member_of_slice (n0 := 4) (n1 := 256) (n2 := 64) Wk l o ho hi shapeCasts_S1x256x64_S256x64
  have ev := Cert.Lsa.member_of_slice (n0 := 4) (n1 := 256) (n2 := 64) Wv l o ho hi shapeCasts_S1x256x64_S256x64
  have ep := Cert.Lsa.member_of_slice (n0 := 4) (n1 := 64) (n2 := 256) Wp l o ho hp shapeCasts_S1x64x256_S64x256
  unfold Cert.Lsa.stepR
  rw [← eq, ← ek, ← ev, ← ep]

/-- The first layer's result. -/
private theorem res14_eq (V0 : Valuation τ sig (Elt Ideal)) :
    res_main_v14 (F := Ideal) V0
      = Cert.Lsa.stepR (V0 (Proc.devRef .tc main_arg1)) (V0 (Proc.devRef .tc main_arg2)) (V0 (Proc.devRef .tc main_arg3))
          (V0 (Proc.devRef .tc main_arg4)) 0 (V0 (Proc.devRef .tc main_arg0)) :=
  layer_eq (V0 (Proc.devRef .tc main_arg0)) (V0 (Proc.devRef .tc main_arg1)) (V0 (Proc.devRef .tc main_arg2))
    (V0 (Proc.devRef .tc main_arg3)) (V0 (Proc.devRef .tc main_arg4)) 0 0 rfl
    slices_S4x256x64_S1x256x64_0_0_0 slices_S4x64x256_S1x64x256_0_0_0

/-- The second layer's result, over the first. -/
private theorem res29_eq (V0 : Valuation τ sig (Elt Ideal)) :
    res_main_v29 (F := Ideal) V0
      = Cert.Lsa.stepR (V0 (Proc.devRef .tc main_arg1)) (V0 (Proc.devRef .tc main_arg2)) (V0 (Proc.devRef .tc main_arg3))
          (V0 (Proc.devRef .tc main_arg4)) 1 (res_main_v14 (F := Ideal) V0) :=
  layer_eq (res_main_v14 (F := Ideal) V0) (V0 (Proc.devRef .tc main_arg1)) (V0 (Proc.devRef .tc main_arg2))
    (V0 (Proc.devRef .tc main_arg3)) (V0 (Proc.devRef .tc main_arg4)) 1 1 rfl
    slices_S4x256x64_S1x256x64_1_0_0 slices_S4x64x256_S1x64x256_1_0_0

/-- The third layer's result, over the second. -/
private theorem res44_eq (V0 : Valuation τ sig (Elt Ideal)) :
    res_main_v44 (F := Ideal) V0
      = Cert.Lsa.stepR (V0 (Proc.devRef .tc main_arg1)) (V0 (Proc.devRef .tc main_arg2)) (V0 (Proc.devRef .tc main_arg3))
          (V0 (Proc.devRef .tc main_arg4)) 2 (res_main_v29 (F := Ideal) V0) :=
  layer_eq (res_main_v29 (F := Ideal) V0) (V0 (Proc.devRef .tc main_arg1)) (V0 (Proc.devRef .tc main_arg2))
    (V0 (Proc.devRef .tc main_arg3)) (V0 (Proc.devRef .tc main_arg4)) 2 2 rfl
    slices_S4x256x64_S1x256x64_2_0_0 slices_S4x64x256_S1x64x256_2_0_0

/-- The fourth layer over the third is the four layers in order. -/
private theorem res59_eq (V0 : Valuation τ sig (Elt Ideal)) :
    refLayer (res_main_v44 (F := Ideal) V0)
      (shapeCast _ (extractStridedSlice S1x256x64 ![3, 0, 0] (V0 (Proc.devRef .tc main_arg1)) slices_S4x256x64_S1x256x64_3_0_0) shapeCasts_S1x256x64_S256x64)
      (shapeCast _ (extractStridedSlice S1x256x64 ![3, 0, 0] (V0 (Proc.devRef .tc main_arg2)) slices_S4x256x64_S1x256x64_3_0_0) shapeCasts_S1x256x64_S256x64)
      (shapeCast _ (extractStridedSlice S1x256x64 ![3, 0, 0] (V0 (Proc.devRef .tc main_arg3)) slices_S4x256x64_S1x256x64_3_0_0) shapeCasts_S1x256x64_S256x64)
      (shapeCast _ (extractStridedSlice S1x64x256 ![3, 0, 0] (V0 (Proc.devRef .tc main_arg4)) slices_S4x64x256_S1x64x256_3_0_0) shapeCasts_S1x64x256_S64x256)
      = Cert.Lsa.netR (V0 (Proc.devRef .tc main_arg0)) (V0 (Proc.devRef .tc main_arg1)) (V0 (Proc.devRef .tc main_arg2))
          (V0 (Proc.devRef .tc main_arg3)) (V0 (Proc.devRef .tc main_arg4)) := by
  rw [layer_eq (res_main_v44 (F := Ideal) V0) (V0 (Proc.devRef .tc main_arg1)) (V0 (Proc.devRef .tc main_arg2))
    (V0 (Proc.devRef .tc main_arg3)) (V0 (Proc.devRef .tc main_arg4)) 3 3 rfl
    slices_S4x256x64_S1x256x64_3_0_0 slices_S4x64x256_S1x64x256_3_0_0, res44_eq, res29_eq, res14_eq]
  rfl

theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v59)
        = Cert.Lsa.netR (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (res59_eq (launchContents m c)), (h c).2⟩)
    (Cert.ReferenceIdeal.Value.run (F := Ideal) m ρ)

end Cert.ReferenceIdeal.LsaValue

end
-- ==== Proof.LsaAlgebra.lean ====
/-
  The two bracketings of one layer agree on real-valued arrays, a layer maps real-valued arrays to a real-valued
  array, and hence the two four-layer networks agree on real-valued inputs.
-/
import proofs.«111333_j71511205478734_1_alg».proof.Proof.LsaSpec

noncomputable section

open scoped BigOperators

namespace Cert.Lsa

open Idealize.ShloMosaic Idealize.ShloMosaic.ValueIdx

/-- The coercion ℝ → EReal commutes with finite sums. -/
private theorem coe_sum {ι : Type} (s : Finset ι) (f : ι → ℝ) :
    ((∑ i ∈ s, f i : ℝ) : EReal) = ∑ i ∈ s, (f i : EReal) := by
  classical
  induction s using Finset.induction_on with
  | empty => simp only [Finset.sum_empty, EReal.coe_zero]
  | insert a s ha ih => rw [Finset.sum_insert ha, Finset.sum_insert ha, EReal.coe_add, ih]

/-- Associativity of a triple matrix product, entrywise, over the reals:
    ∑ₖ q k · (∑ₜ K t k · V t) = ∑ₜ (∑ₖ q k · K t k) · V t. -/
private theorem real_assoc {α β : Type} [Fintype α] [Fintype β] (q : β → ℝ) (K : α → β → ℝ) (V : α → ℝ) :
    ∑ k, q k * (∑ t, K t k * V t) = ∑ t, (∑ k, q k * K t k) * V t := by
  simp only [Finset.mul_sum, Finset.sum_mul]
  rw [Finset.sum_comm]
  exact Finset.sum_congr rfl fun t _ => Finset.sum_congr rfl fun k _ => (mul_assoc _ _ _).symm

/-- The same identity for extended reals all of whose entries are coerced reals. -/
private theorem ereal_assoc {α β : Type} [Fintype α] [Fintype β] (q : β → ℝ) (K : α → β → ℝ) (V : α → ℝ) :
    ∑ k, (q k : EReal) * (∑ t, (K t k : EReal) * (V t : EReal))
      = ∑ t, (∑ k, (q k : EReal) * (K t k : EReal)) * (V t : EReal) := by
  simp only [← EReal.coe_mul, ← coe_sum]
  exact congrArg _ (real_assoc q K V)

/-- A projection of a real-valued stream by real-valued weights is real. -/
private theorem proj_real {nb : Nat} (x : Stream nb) (w : WIn) (hx : IsReal x) (hw : IsReal w)
    (b : Fin nb) (s : Fin 4096) (k : Fin 64) : ∃ r : ℝ, proj x w b s k = (r : EReal) := by
  choose xr hxr using hx
  choose wr hwr using hw
  exact ⟨∑ d : Fin 256, xr (ix3 b s d) * wr (ix2 d k), by
    simp only [proj, hxr, hwr, ← EReal.coe_mul, ← coe_sum]⟩

/-- Q·(Kᵀ·V) = (Q·Kᵀ)·V on real entries. -/
theorem layerK_eq_layerR (x : Act) (wq wk wv : WIn) (wp : WOut) (hx : IsReal x) (hq : IsReal wq) (hk : IsReal wk)
    (hv : IsReal wv) (b : Fin 4) (s : Fin 4096) (d : Fin 256) :
    layerK x wq wk wv wp b s d = layerR x wq wk wv wp b s d := by
  choose Q hQ using fun k => proj_real x wq hx hq b s k
  choose K hK using fun t k => proj_real x wk hx hk b t k
  choose V hV using fun t v => proj_real x wv hx hv b t v
  simp only [layerK, layerR, hQ, hK, hV]
  refine congrArg _ (Finset.sum_congr rfl fun v _ => ?_)
  rw [ereal_assoc Q K (fun t => V t v)]

/-- A layer of real-valued arrays is real-valued. -/
theorem LR_isReal (x : Act) (wq wk wv : WIn) (wp : WOut) (hx : IsReal x) (hq : IsReal wq) (hk : IsReal wk)
    (hv : IsReal wv) (hp : IsReal wp) : IsReal (LR x wq wk wv wp) := by
  intro j
  choose Q hQ using fun k => proj_real x wq hx hq (j 0) (j 1) k
  choose K hK using fun t k => proj_real x wk hx hk (j 0) t k
  choose V hV using fun t v => proj_real x wv hx hv (j 0) t v
  choose xr hxr using hx
  choose pr hpr using hp
  refine ⟨xr (ix3 (j 0) (j 1) (j 2))
      + ∑ v : Fin 64, (∑ t : Fin 4096, (∑ k : Fin 64, Q k * K t k) * V t v) * pr (ix2 v (j 2)), ?_⟩
  simp only [LR, layerR, hQ, hK, hV, hxr, hpr, ← EReal.coe_mul, ← coe_sum, ← EReal.coe_add]

/-- A member of a real-valued stack is real-valued. -/
theorem member_isReal {n0 n1 n2 : Nat} (W : (⟨3, ![n0, n1, n2]⟩ : Shape).Idx → EReal) (h : IsReal W) (l : Fin n0) :
    IsReal (member W l) := fun j => h _

/-- One layer of the stack: the two bracketings agree on a real-valued stream. -/
private theorem stepK_eq_stepR (Wq Wk Wv : WInStack) (Wp : WOutStack) (hq : IsReal Wq) (hk : IsReal Wk)
    (hv : IsReal Wv) (l : Fin 4) (y : Act) (hy : IsReal y) :
    stepK Wq Wk Wv Wp l y = stepR Wq Wk Wv Wp l y := by
  funext j
  rw [eq_ix3 j]
  simp only [stepK, stepR, LK_apply, LR_apply]
  exact layerK_eq_layerR y _ _ _ _ hy (member_isReal Wq hq l) (member_isReal Wk hk l) (member_isReal Wv hv l) _ _ _

/-- One layer of the stack maps a real-valued stream to a real-valued stream. -/
private theorem stepR_isReal (Wq Wk Wv : WInStack) (Wp : WOutStack) (hq : IsReal Wq) (hk : IsReal Wk)
    (hv : IsReal Wv) (hp : IsReal Wp) (l : Fin 4) (y : Act) (hy : IsReal y) :
    IsReal (stepR Wq Wk Wv Wp l y) :=
  LR_isReal y _ _ _ _ hy (member_isReal Wq hq l) (member_isReal Wk hk l) (member_isReal Wv hv l)
    (member_isReal Wp hp l)

/-- The four-layer networks agree on real-valued inputs. -/
theorem netK_eq_netR (x : Act) (Wq Wk Wv : WInStack) (Wp : WOutStack) (hx : IsReal x) (hq : IsReal Wq) (hk : IsReal Wk)
    (hv : IsReal Wv) (hp : IsReal Wp) : netK x Wq Wk Wv Wp = netR x Wq Wk Wv Wp := by
  have h0 := stepR_isReal Wq Wk Wv Wp hq hk hv hp 0 x hx
  have h1 := stepR_isReal Wq Wk Wv Wp hq hk hv hp 1 _ h0
  have h2 := stepR_isReal Wq Wk Wv Wp hq hk hv hp 2 _ h1
  unfold netK netR
  rw [stepK_eq_stepR Wq Wk Wv Wp hq hk hv 0 x hx, stepK_eq_stepR Wq Wk Wv Wp hq hk hv 1 _ h0,
    stepK_eq_stepR Wq Wk Wv Wp hq hk hv 2 _ h1, stepK_eq_stepR Wq Wk Wv Wp hq hk hv 3 _ h2]

end Cert.Lsa

end
-- ==== Proof.LsaFinite.lean ====
/-
  The precondition says that the absolute value of every entry of every argument is below +∞; on the extended
  reals that is to say every entry is a real number.
-/
import proofs.«111333_j71511205478734_1_alg».proof.Pre_finite_inputs
import proofs.«111333_j71511205478734_1_alg».proof.Proof.Gen.Pre_finite_inputs
import proofs.«111333_j71511205478734_1_alg».proof.Proof.LsaSpec
import Idealize.ShloMosaic.PureOps.Ideal
import Idealize.ShloMosaic.Lib.ValueIdx
import Idealize.ShloMosaic.Lib.ReduceAll

noncomputable section

namespace Cert.Lsa

open Idealize.ShloMosaic Idealize.ShloMosaic.ValueIdx

/-- The result shape of a reduction over all axes has exactly one index. -/
private instance subsingleton_scalar_idx : Subsingleton Cert.Pre_finite_inputs.S_.Idx :=
  ⟨fun _ _ => funext fun d => d.elim0⟩

/-- The pattern 0x7F800000 denotes +∞. -/
private theorem ofBits_inf : Ideal.ofBits .f32 0x7F800000#32 = (⊤ : EReal) := by
  simp [Ideal.ofBits, Ideal.ieee]

/-- An extended real whose absolute value max a (-a) compares below +∞ is a real number. -/
private theorem real_of_abs_lt_top (a : EReal)
    (h : Ideal.cmp .olt (max a (-a)) (Ideal.ofBits .f32 0x7F800000#32) = 1#1) : ∃ r : ℝ, a = (r : EReal) := by
  rw [ofBits_inf] at h
  induction a using EReal.rec with
  | bot => simp [Ideal.cmp] at h
  | coe r => exact ⟨r, rfl⟩
  | top => simp [Ideal.cmp] at h

/-- One argument's test, read at an entry: |x| < +∞ there says the entry is real. -/
private theorem isReal_of_all {s : Shape}
    (hb : Cert.Pre_finite_inputs.S_.BroadcastsInDim s (![] : Fin 0 → Fin s.rank))
    (x : s.Idx → EReal)
    (h : ∀ i, cmpf (F := Ideal) (φ := .f32) .olt (Host.absf (F := Ideal) (φ := .f32) x)
      (broadcastInDim s ![] hb (constant (F := Ideal) Cert.Pre_finite_inputs.S_ .f32 0x7F800000#32)) i = 1#1) :
    IsReal x := fun i => real_of_abs_lt_top (x i) (h i)

/-- All ones from the finiteness predicate means all five arrays are real-valued. -/
theorem isReal_of_pre (x : Act) (Wq Wk Wv : WInStack) (Wp : WOutStack)
    (h : Cert.Pre_finite_inputs.fn (F := Ideal) x Wq Wk Wv Wp = fun _ => 1#1) :
    IsReal x ∧ IsReal Wq ∧ IsReal Wk ∧ IsReal Wv ∧ IsReal Wp := by
  have h0 := congrFun h ValueIdx.ix0
  dsimp only [Cert.Pre_finite_inputs.fn, Cert.Pre_finite_inputs.fn_part1] at h0
  obtain ⟨h0, h5⟩ := IntOp.andi_eq_one.1 h0
  obtain ⟨h0, h4⟩ := IntOp.andi_eq_one.1 h0
  obtain ⟨h0, h3⟩ := IntOp.andi_eq_one.1 h0
  obtain ⟨h1, h2⟩ := IntOp.andi_eq_one.1 h0
  exact ⟨isReal_of_all _ x (Host.reduce_andi_all _ _ _ _ _ h1),
    isReal_of_all _ Wq (Host.reduce_andi_all _ _ _ _ _ h2),
    isReal_of_all _ Wk (Host.reduce_andi_all _ _ _ _ _ h3),
    isReal_of_all _ Wv (Host.reduce_andi_all _ _ _ _ _ h4),
    isReal_of_all _ Wp (Host.reduce_andi_all _ _ _ _ _ h5)⟩

end Cert.Lsa

end
-- ==== Proof.lean ====
/-
  The certificate of the four-layer linear self-attention kernel against its jnp reference.

  Each layer maps the residual stream x to x + ((x·Wq)·(x·Wk)ᵀ·(x·Wv))·Wp. The kernel evaluates the triple product as
  Q·(Kᵀ·V) — a 64 × 64 intermediate per batch — and the reference as (Q·Kᵀ)·V, through the 4096 × 4096 scores. On the
  extended reals the two bracketings agree when every entry is a real number: the sums are finite, products
  distribute over them and the sums over positions and over the head dimension may be exchanged. The precondition
  makes every argument real-valued, and a layer of real-valued arrays is real-valued, so the agreement carries
  through the four layers. The conversions to bf16 inside the kernel are the identity on exact values.

  The kernel side: each of the four launches writes, batch by batch, one layer of its input stream (KernelRegion*),
  the host between launches only cuts the next layer's weights out of the argument stacks, and the launches compose
  to the network `Lsa.netK` at the result buffer (KernelChain, KernelRun). The reference side: its run ends at the
  four nested layers `Lsa.netR` (RefValue). The algebra joins them (LsaAlgebra), from real-valued arguments (LsaFinite).
-/
import proofs.«111333_j71511205478734_1_alg».proof.Defs
import proofs.«111333_j71511205478734_1_alg».proof.Proof.Gen.Kernel
import proofs.«111333_j71511205478734_1_alg».proof.Proof.Gen.Kernel.Skeleton
import proofs.«111333_j71511205478734_1_alg».proof.Proof.Gen.Kernel.Launch
import proofs.«111333_j71511205478734_1_alg».proof.Proof.Gen.Kernel.Points
import proofs.«111333_j71511205478734_1_alg».proof.Proof.Gen.Kernel.Frame
import proofs.«111333_j71511205478734_1_alg».proof.Proof.Gen.KernelIdeal
import proofs.«111333_j71511205478734_1_alg».proof.Proof.Gen.KernelIdeal.Skeleton
import proofs.«111333_j71511205478734_1_alg».proof.Proof.Gen.KernelIdeal.Launch
import proofs.«111333_j71511205478734_1_alg».proof.Proof.Gen.KernelIdeal.Points
import proofs.«111333_j71511205478734_1_alg».proof.Proof.Gen.KernelIdeal.Frame
import proofs.«111333_j71511205478734_1_alg».proof.Proof.Gen.ReferenceIdeal
import proofs.«111333_j71511205478734_1_alg».proof.Proof.Gen.ReferenceIdeal.Run
import proofs.«111333_j71511205478734_1_alg».proof.Proof.Gen.Pre_finite_inputs
import proofs.«111333_j71511205478734_1_alg».proof.Proof.KernelRun
import proofs.«111333_j71511205478734_1_alg».proof.Proof.KernelChain
import proofs.«111333_j71511205478734_1_alg».proof.Proof.RefValue
import proofs.«111333_j71511205478734_1_alg».proof.Proof.LsaAlgebra
import proofs.«111333_j71511205478734_1_alg».proof.Proof.LsaFinite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The kernel's run ends with the result buffer at the network in the bracketing Q·(Kᵀ·V). -/
theorem kernel_value (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v35)
          = Cert.Lsa.netK (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
              (m ((c.tc : Thread Cert.KernelIdeal.nD Cert.KernelIdeal.τ).loc Cert.KernelIdeal.main_arg4))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run Cert.KernelIdeal.defs _ _).mono
    (fun _ h c => ⟨(h c).1.trans (Cert.KernelIdeal.LsaChain.W8_result m ρ c), (h c).2⟩)
    (Cert.KernelIdeal.LsaRun.run_W8 (F := Ideal) m ρ)

/-- Both programs end at the same array: the two bracketings agree on the real-valued arguments the precondition admits. -/
theorem algebraic : Cert.algebraic_KernelIdeal_ReferenceIdeal := by
  intro m ρ m' ρ' hpre hagree
  refine ⟨_, kernel_value m ρ, ?_⟩
  refine (θ_run Cert.ReferenceIdeal.defs _ _).mono (fun _ h c => ⟨(h c).1.trans ?_, (h c).2⟩)
    (Cert.ReferenceIdeal.LsaValue.run_value m' ρ')
  obtain ⟨h0, h1, h2, h3, h4⟩ := hagree c
  obtain ⟨r0, r1, r2, r3, r4⟩ := Cert.Lsa.isReal_of_pre _ _ _ _ _ (hpre c)
  rw [h0, h1, h2, h3, h4]
  exact (Cert.Lsa.netK_eq_netR _ _ _ _ _ r0 r1 r2 r3 r4).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
